-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x1 : Shape := ⟨2, ![4096, 1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096x1 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096x1 : Shape := ⟨2, ![4096, 1]⟩
abbrev S_ : Shape := ⟨0, ![]⟩
abbrev S4096 : Shape := ⟨1, ![4096]⟩
abbrev S1x4096 : Shape := ⟨2, ![1, 4096]⟩
abbrev S1x1 : Shape := ⟨2, ![1, 1]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 26
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S1x4096, .f32⟩
  | .hbm, ⟨20, _⟩ => ⟨S1x4096, .f32⟩
  | .hbm, ⟨21, _⟩ => ⟨S4096x1024, .bf16⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | .local _ .vmem, ⟨13, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v54 : BitVec 1 := Scalar.cmpi .eq arg0 c7_i32
  let arg1 : BitVec 32 := BitVec.ofNat 32 (i 1).val
  let c7_i32_25 : BitVec 32 := 7#32
  let v55 : BitVec 1 := Scalar.cmpi .eq arg1 c7_i32_25
  let v56 : BitVec 1 := Scalar.andi v54 v55
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1_S1x4096_1_0 : S4096x1.Transposes [1, 0] S1x4096
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x1 : Shape := ⟨2, ![4096, 1]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x4096, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Data.lean ====
/-
  The pipeline's proof data for the pairwise-distance kernel, at any float instance.

  The grid is 8 × 8 points, walked row-major: point `t` is block row `t / 8` and block column `t % 8` of the
  4096 × 4096 matrix of squared distances. At each point the body reads the row block and the column block of the
  normalised embeddings (two windows on ONE array), the row blocks of the squared norms and of the coordinate sums,
  and the column blocks of their transposes; it forms the 512 × 512 block of clamped squared distances, zeroes its
  diagonal entries (row index = column index in the whole matrix), sums the block and adds the sum to a 1 × 1
  accumulator kept in scratch memory. The accumulator is zeroed at the first point and copied to the 1 × 1 output
  window at the last point, the only point at which that window is written back.

  So what the scratch holds after point `t` is a recursion on the point (`accAfter`): the body's own sum-and-add
  applied to the block of point `t` and to what the point before left, starting from the zero the first point stores.
-/
import proofs.«143332_j841813590238_1_alg».proof.Proof.Gen.Kernel.Launch
import proofs.«143332_j841813590238_1_alg».proof.Proof.Gen.Kernel.Skeleton
import proofs.«143332_j841813590238_1_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m (c, b)
/-- after the norm's five operations; -/
abbrev Vn (c : Dev nD) : Valuation τ sig (Elt F) := StableHlo.after hostOps0 (V₀ m c)
/-- and after the fifteen that normalise the rows and form the norms, the sums and their transposes: what the
    region is entered with. -/
abbrev Vh (c : Dev nD) : Valuation τ sig (Elt F) := StableHlo.after hostOps0_1 (Vn m c)
/-- The same read at a TensorCore reference. -/
abbrev V (c : Dev nD) (b : Ref sig .tc) : Buf (Elt F) ((c : Thread nD τ).loc b) := Vh m c (Proc.devRef .tc b)

/-! ## The blocks a point reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block and the column block of the normalised embeddings, -/
abbrev eRow (c : Dev nD) (t : Fin cfg0.N) : Vec F S512x1024 .bf16 := iblk m c 0 t
abbrev eCol (c : Dev nD) (t : Fin cfg0.N) : Vec F S512x1024 .bf16 := iblk m c 1 t
/-- the row blocks of the squared norms and of the coordinate sums, -/
abbrev nRow (c : Dev nD) (t : Fin cfg0.N) : Vec F S512x1 .f32 := iblk m c 2 t
abbrev sRow (c : Dev nD) (t : Fin cfg0.N) : Vec F S512x1 .f32 := iblk m c 3 t
/-- and the column blocks of their transposes. -/
abbrev nCol (c : Dev nD) (t : Fin cfg0.N) : Vec F S1x512 .f32 := iblk m c 4 t
abbrev sCol (c : Dev nD) (t : Fin cfg0.N) : Vec F S1x512 .f32 := iblk m c 5 t

/-! ## What a point computes -/

/-- The block column of point `t` as a word, the first row of its block row as a word, and the row counter. -/
abbrev colWord (t : Fin cfg0.N) : BitVec 32 := BitVec.ofNat 32 ((grid0.coords t) 1).val
abbrev rowBase (t : Fin cfg0.N) : BitVec 32 := Scalar.muli (BitVec.ofNat 32 ((grid0.coords t) 0).val) 512#32
abbrev rowIota : IVec S512x512 32 := iota .tc S512x512 32 [0] iota_S512x512_d0_w32

/-- The 512 × 512 block of clamped squared distances at point `t`. -/
def distBlock (c : Dev nD) (t : Fin cfg0.N) : FVec F S512x512 .f32 :=
  k0_pay3 (eRow m c t) (eCol m c t) (nRow m c t) (nCol m c t) (sRow m c t) (sCol m c t)

/-- The accumulator after point `t`, from what it held before: the block's off-diagonal sum added. -/
def stepAcc (c : Dev nD) (t : Fin cfg0.N) (prev : Vec F S1x1 .f32) : Vec F S1x1 .f32 :=
  k0_pay1 (colWord t) (distBlock m c t) (rowBase t) rowIota prev

/-- What the scratch accumulator holds after point `n`: the zero the first point stores, then one step per point. -/
def accAfter (c : Dev nD) : ℕ → Vec F S1x1 .f32
  | 0 => if h : 0 < cfg0.N then stepAcc m c ⟨0, h⟩ (k0_pay2 (F := F)) else k0_pay2 (F := F)
  | n + 1 => if h : n + 1 < cfg0.N then stepAcc m c ⟨n + 1, h⟩ (accAfter c n) else accAfter c n

/-! ## The invariant and the proof data -/

/-- The scratch accumulator as a memref. -/
abbrev accM : Memref sig .tc .vmem S1x1 .f32 := Memref.whole cc0_scratch0

/-- Between points: the accumulator at what the point before left (before the first point, at anything). -/
def Φc (c : Dev nD) (t : Fin (cfg0.N + 1)) : sProp 𝕄 :=
  iprop(∃ d : Vec F S1x1 .f32, ⌜t.val ≠ 0 → d = accAfter m c (t.val - 1)⌝ ∗ owns (c : Thread nD τ) accM fullShare d)

/-- The proof data on core `c`. The arrays at their region-entry contents; an input window's buffer left at its
    block; the output window's at the accumulator (consulted at the last point only: elsewhere the window is idle);
    the two windows on the embeddings' array hold one half of it each, every other array is held whole. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAfter m c t.val
  Φ t := Φc m c t
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The one pipeline's proof data. -/
def dats (_ : Fin 1) (c : Dev nD) : Dat τ (Elt F) Unit ℕ (UR sig nD τ) ℕ cfg0 c := dat m c

end Cert.Kernel.Hand

end
-- ==== Proof.K.Runs.lean ====
/-
  The kernel body at one grid point, and the pipeline's obligation for it.

  Three control cases. At the grid's first point the body zeroes the scratch accumulator, then adds the block's
  off-diagonal sum to it; at the points in between it only adds; at the last point it adds and then copies the
  accumulator into the output window. Each case is run once, on any whole staging memrefs at any contents
  (`run_first`, `run_mid`, `run_last`): the input buffers come back untouched, the accumulator at the step's value,
  and in the last case the output buffer at the same value. The obligation at point `t` then takes the case the
  point's coordinates decide: every input buffer holds its window's block there, fetched or kept from the point
  before (the block index did not move), and the output window, idle before the last point, is handed back as found.
-/
import proofs.«143332_j841813590238_1_alg».proof.Proof.K.Data

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals -/

/-- The first conditional's test (is this the grid's first point?) and the second's (is it the last?), as the body
    computes them from the coordinates. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev isLast (i : grid0.Coords) : Prop := k0_cond2 i = 1#1

/-- Over the grid: the first test holds at point 0 only, the second at point 63 only. -/
theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 63 :=
  (by decide +kernel : ∀ t : Fin grid0.N, isLast (grid0.coords t) ↔ t.val = 63)
/-- Before the last point the output window is idle and is not written back; at the last point it is live. -/
theorem idle_out : ∀ t : Fin cfg0.N, ¬isLast (grid0.coords t) → cfg0.idle 6 (grid0.coords t) = true :=
  (by decide +kernel : ∀ t : Fin grid0.N, ¬isLast (grid0.coords t) → cfg0.idle 6 (grid0.coords t) = true)
theorem noflush_out : ∀ t : Fin cfg0.N, ¬isLast (grid0.coords t) → (cfg0.win 6).flush t = false :=
  (by decide +kernel : ∀ t : Fin grid0.N, ¬isLast (grid0.coords t) → win0_6.flush t = false)
theorem live_out : ∀ t : Fin cfg0.N, isLast (grid0.coords t) → cfg0.idle 6 (grid0.coords t) = false :=
  (by decide +kernel : ∀ t : Fin grid0.N, isLast (grid0.coords t) → cfg0.idle 6 (grid0.coords t) = false)

/-! ## The body, case by case -/

set_option maxHeartbeats 1000000 in
/-- The first point: the accumulator zeroed, then the block's sum added to the zero. -/
theorem run_first (c : Dev nD) (i : grid0.Coords) (h1 : isFirst i) (h2 : ¬isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare x8
            ∗ owns (c : Thread nD τ) accM fullShare (k0_pay1 (BitVec.ofNat 32 (i 1).val) (k0_pay3 x2 x3 x4 x6 x5 x7) (Scalar.muli (BitVec.ofNat 32 (i 0).val) 512#32) rowIota (k0_pay2 (F := F)))) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; swap; · iexact Ha
  ipureintro
  sl_unfold_words
  have hz : (![0, 0] : Fin 2 → Nat) = fun _ => 0 := by funext a; fin_cases a <;> rfl
  rw [View.read_writes_eq_canon _ _ _ (fun y => ⟨_, List.mem_cons_self, View.mem_set_unit_zero hz Facts₀.inb_S1x1_S1x1_0_0 y⟩), View.canon_cons_unit_zero hz,
    View.readCov_unit_zero (S := S1x1) _ hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

set_option maxHeartbeats 1000000 in
/-- A point in between: the block's sum added to what the accumulator held. -/
theorem run_mid (c : Dev nD) (i : grid0.Coords) (h1 : ¬isFirst i) (h2 : ¬isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare x8
            ∗ owns (c : Thread nD τ) accM fullShare (k0_pay1 (BitVec.ofNat 32 (i 1).val) (k0_pay3 x2 x3 x4 x6 x5 x7) (Scalar.muli (BitVec.ofNat 32 (i 0).val) 512#32) rowIota acc)) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; swap; · iexact Ha
  ipureintro
  sl_unfold_words
  have hz : (![0, 0] : Fin 2 → Nat) = fun _ => 0 := by funext a; fin_cases a <;> rfl
  rw [View.read_writes_eq_canon _ _ _ (fun y => ⟨_, List.mem_singleton_self _, View.mem_set_unit_zero hz Facts₀.inb_S1x1_S1x1_0_0 y⟩), View.canon_unit_zero hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

set_option maxHeartbeats 1000000 in
/-- The last point: the sum added, and the accumulator copied to the output window's buffer. -/
theorem run_last (c : Dev nD) (i : grid0.Coords) (h1 : ¬isFirst i) (h2 : isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare (k0_pay1 (BitVec.ofNat 32 (i 1).val) (k0_pay3 x2 x3 x4 x6 x5 x7) (Scalar.muli (BitVec.ofNat 32 (i 0).val) 512#32) rowIota acc)
            ∗ owns (c : Thread nD τ) accM fullShare (k0_pay1 (BitVec.ofNat 32 (i 1).val) (k0_pay3 x2 x3 x4 x6 x5 x7) (Scalar.muli (BitVec.ofNat 32 (i 0).val) 512#32) rowIota acc)) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  have hz : (![0, 0] : Fin 2 → Nat) = fun _ => 0 := by funext a; fin_cases a <;> rfl
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    sl_unfold_words
    rw [View.read_writes_eq_canon _ _ _ (fun y => ⟨_, List.mem_singleton_self _, View.mem_set_unit_zero hz Facts₀.inb_S1x1_S1x1_0_0 y⟩), View.canon_unit_zero hz,
      View.readCov_unit_zero (S := S1x1) _ hz]
    simp only [View.readAt_eq_ld, hf2, hf3, hf4, hf5, hf6, hf7, hfa, View.ld_unit_zero (S := S512x1024) hz, View.ld_unit_zero (S := S512x1) hz,
      View.ld_unit_zero (S := S1x512) hz, View.ld_unit_zero (S := S1x1) hz]
  iexists _; isplitr; swap; · iexact Ha
  ipureintro
  sl_unfold_words
  rw [View.read_writes_eq_canon _ _ _ (fun y => ⟨_, List.mem_singleton_self _, View.mem_set_unit_zero hz Facts₀.inb_S1x1_S1x1_0_0 y⟩), View.canon_unit_zero hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

end Cert.Kernel.Hand

end
-- ==== Proof.K.Body.lean ====
/-
  The kernel body at one grid point, and the pipeline's obligation for it.

  Three control cases. At the grid's first point the body zeroes the scratch accumulator, then adds the block's
  off-diagonal sum to it; at the points in between it only adds; at the last point it adds and then copies the
  accumulator into the output window. Each case is run once, on any whole staging memrefs at any contents
  (`run_first`, `run_mid`, `run_last`): the input buffers come back untouched, the accumulator at the step's value,
  and in the last case the output buffer at the same value. The obligation at point `t` then takes the case the
  point's coordinates decide: every input buffer holds its window's block there, fetched or kept from the point
  before (the block index did not move), and the output window, idle before the last point, is handed back as found.
-/
import proofs.«143332_j841813590238_1_alg».proof.Proof.K.Runs

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each staging buffer holds when the body runs -/

/-- An input window's buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_in1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_in2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_in3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_in4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before_in5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

/-! ## The accumulator's recursion, unfolded at a point -/

theorem accAfter_first (c : Dev nD) (t : Fin cfg0.N) (h : t.val = 0) :
    accAfter m c t.val = stepAcc m c t (k0_pay2 (F := F)) := by
  obtain ⟨n, hn⟩ := t
  obtain rfl : n = 0 := h
  unfold accAfter; rw [dif_pos hn]

theorem accAfter_later (c : Dev nD) (t : Fin cfg0.N) (h : t.val ≠ 0) :
    accAfter m c t.val = stepAcc m c t (accAfter m c (t.val - 1)) := by
  obtain ⟨n, hn⟩ := t
  obtain ⟨k, rfl⟩ : ∃ k, n = k + 1 := ⟨n - 1, by have : n ≠ 0 := h; omega⟩
  show accAfter m c (k + 1) = _
  rw [accAfter, dif_pos hn]; rfl

/-! ## The obligation -/

set_option maxHeartbeats 1000000 in
theorem body_obligation (c : Dev nD) : BodyObligation (dats m 0 c) (defs₀ (F := F)) Variants.none () Set.univ := fun t => by
  rw [bigSep_W0, bigSep_W0]
  simp only [before_in0 m c, before_in1 m c, before_in2 m c, before_in3 m c, before_in4 m c, before_in5 m c]
  rw [show (dats m 0 c).Φ t.castSucc = Φc m c t.castSucc from rfl, show (dats m 0 c).Φ t.succ = Φc m c t.succ from rfl]
  unfold Φc Dat.owesAt Pipeline.owesWithin
  rw [show (dats m 0 c).owed t.castSucc = 0 from rfl, show (dats m 0 c).owed t.succ = 0 from rfl]
  by_cases hL : isLast (grid0.coords t)
  · have hF : ¬isFirst (grid0.coords t) := by
      rw [first_iff]; rw [last_iff] at hL; omega
    have ht0 : t.val ≠ 0 := by rw [last_iff] at hL; omega
    simp only [show idle0 6 (grid0.coords t) = false from live_out t hL]
    iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
    obtain rfl : d = accAfter m c (t.val - 1) := hd ht0
    iapply (run_last c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
      ((dats m 0 c).before 6 t d6) (accAfter m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hacc]; · iexact Hacc
    iintro ⟨H0, H1, H2, H3, H4, H5, H6, Hacc⟩
    have e : stepAcc m c t (accAfter m c (t.val - 1)) = accAfter m c t.val := (accAfter_later m c t ht0).symm
    isplitl [Hacc]
    · iexists _; isplitr; swap; · iexact Hacc
      ipureintro; intro _; exact e
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    rw [show (dats m 0 c).after 6 t = accAfter m c t.val from rfl, ← e]
    iexact H6
  · simp only [show idle0 6 (grid0.coords t) = true from idle_out t hL, show (win0 6).flush t = false from noflush_out t hL]
    by_cases hF : isFirst (grid0.coords t)
    · have ht0 : t.val = 0 := (first_iff t).mp hF
      iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
      iapply (run_first c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
        ((dats m 0 c).before 6 t d6) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hacc]; · iexact Hacc
      iintro ⟨H0, H1, H2, H3, H4, H5, H6, Hacc⟩
      have e : stepAcc m c t (k0_pay2 (F := F)) = accAfter m c t.val := (accAfter_first m c t ht0).symm
      isplitl [Hacc]
      · iexists _; isplitr; swap; · iexact Hacc
        ipureintro; intro _; exact e
      isplitl [HO]
      · iexists W; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      iexists d6; iexact H6
    · have ht0 : t.val ≠ 0 := fun h => hF ((first_iff t).mpr h)
      iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
      obtain rfl : d = accAfter m c (t.val - 1) := hd ht0
      iapply (run_mid c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
        ((dats m 0 c).before 6 t d6) (accAfter m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hacc]; · iexact Hacc
      iintro ⟨H0, H1, H2, H3, H4, H5, H6, Hacc⟩
      have e : stepAcc m c t (accAfter m c (t.val - 1)) = accAfter m c t.val := (accAfter_later m c t ht0).symm
      isplitl [Hacc]
      · iexists _; isplitr; swap; · iexact Hacc
        ipureintro; intro _; exact e
      isplitl [HO]
      · iexists W; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      iexists d6; iexact H6

end Cert.Kernel.Hand

end
-- ==== Proof.K.Ends.lean ====
/-
  The buffers when the kernel region is left and at the end of the program, and what the output array holds.

  The output window's block is the whole 1 × 1 array, and it is written back at the last grid point only: so after
  the region the array holds what the last point left in the window's buffer, the accumulator after point 63.
  The program then reshapes it to a scalar and divides by the number of ordered pairs.
-/
import proofs.«143332_j841813590238_1_alg».proof.Proof.K.Data
import Idealize.ShloMosaic.Lib.StableHlo.Run

noncomputable section

namespace Cert.Kernel.Hand

open Cert.Kernel Cert.Kernel.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers when the region is left: as it was entered, but for the output array, which holds what the
    write-backs made of it. -/
abbrev Vout (c : Dev nD) : Valuation τ sig (Elt F) :=
  Function.update (Vh m c) (Proc.devRef .tc main_v13) ((dats m 0 c).arrAt 6 cfg0.N)
/-- And at the end: after the three operations that follow the region. -/
abbrev Vend (c : Dev nD) : Valuation τ sig (Elt F) := StableHlo.after hostOps1 (Vout m c)

/-- The grid's last point. -/
abbrev tLast : Fin cfg0.N := ⟨63, by rw [show cfg0.N = 64 from N_0]; omega⟩

/-- The output array after the region, read through the last point's block (the whole array), is the accumulator
    after the last point. -/
theorem out_read (c : Dev nD) :
    ((cfg0.win 6).blk tLast).view.read (Elt F) ((dats m 0 c).arrAt 6 cfg0.N) = accAfter m c 63 := by
  have hN : cfg0.N = 64 := N_0
  have h := (dats m 0 c).read_blk_arrAt_eq_flushed 6
    (fun t t' hf hf' hne => absurd (Fin.ext (by
      have h1 := (flush0_6 t).mp hf; have h2 := (flush0_6 t').mp hf'; have := t.isLt; have := t'.isLt; omega)) hne)
    cfg0.N tLast tLast.isLt ((flush0_6 tLast).mpr (by decide))
  exact h.trans rfl

/-- The output array after the region is the accumulator after the last point. -/
theorem out_apply (c : Dev nD) :
    ((dats m 0 c).arrAt 6 cfg0.N : S1x1.Idx → Elt F .f32) = accAfter m c 63 := by
  rw [← out_read m c]
  funext y
  rw [View.read_apply]
  have hy : ((cfg0.win 6).blk tLast).view.emb y = y := by
    funext a
    apply Fin.ext
    have h1 := (((cfg0.win 6).blk tLast).view.emb y a).isLt
    have h2 := (y a).isLt
    match a with
    | ⟨0, _⟩ => exact (Nat.lt_one_iff.mp h1).trans (Nat.lt_one_iff.mp h2).symm
    | ⟨1, _⟩ => exact (Nat.lt_one_iff.mp h1).trans (Nat.lt_one_iff.mp h2).symm
  rw [hy]; rfl

/-- The program's result: the output array's one entry, as a scalar, over the number of ordered pairs. -/
theorem vend_eq (c : Dev nD) :
    (Vend m c (Proc.devRef .tc main_v15) : S_.Idx → Elt F .f32)
      = Host.divf (shapeCast S_ (Vout m c (Proc.devRef .tc main_v13) : S1x1.Idx → Elt F .f32) shapeCasts_S1x1_S_)
          (constant S_ .f32 0x4B7FF000#32) := by
  dsimp only [Vend, hostOps1]
  after_results
  rfl

/-- The output array when the region is left. -/
theorem vout_out (c : Dev nD) :
    (Vout m c (Proc.devRef .tc main_v13) : S1x1.Idx → Elt F .f32) = accAfter m c 63 := by
  rw [← out_apply m c]
  exact Function.update_self ..

end Cert.Kernel.Hand

end
-- ==== Proof.K.Launch.lean ====
/-
  The launch: @main as host operations, the kernel region, host operations, and the run it has.

  @main is twenty host operations (the row norms; then the normalised rows, their squared norms, their sums, the
  transposes of those, and the rows rounded to the narrower format), ONE kernel region, and three host operations
  (the 1 × 1 result reshaped to a scalar, a constant, their quotient). The region's pipeline has seven windows; the
  first two are on ONE array (the rounded rows, read once by block row and once by block column), so that array's
  points-to is dealt in two halves, one per window, when the region is entered and joined again when it is left.
  Every other array is held whole. The scratch accumulator is a scoped buffer: it reaches the body through the
  invariant, at anything before the first point.

  From the body obligation, at any float instance: from any memory whose semaphore counters are zero, every weakly
  fair execution of @main on the TensorCores terminates, and every final memory holds, at the result's buffer, what
  the three closing operations make of the output array as the write-backs left it, and holds both arguments as
  launched.
-/
import proofs.«143332_j841813590238_1_alg».proof.Proof.K.Ends
import Idealize.ShloMosaic.Lib.Pipeline.Kit
import Idealize.ShloMosaic.Lib.Pipeline.Frame

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The segments' common data -/

/-- The pipeline library's algebra is the whole of the certificate's. -/
abbrev EPk : Emb (UR sig nD τ) (MT nD τ sig Unit (Elt F) ℕ (UR sig nD τ) ℕ) := emb₁

abbrev 𝒱k : Variants := Variants.none
/-- No core owes another anything: no level is assigned. -/
abbrev Lk : GSem nD τ sig → Finset Unit := fun _ => ∅
abbrev lvk : GSem nD τ sig → Unit → ℕ := fun _ _ => 0
/-- The prefetched tables' admissible contents: no table. -/
abbrev admk : (p : Fin 1) → (pcfgs (F := F) p).Adm := fun p => (cfgs p).toPCfg_adm

/-- What rides beside the buffers through the host operations: that the core owes nothing. -/
abbrev Rk (c : Dev nD) : sProp 𝕄 := iprop(∃ W, owes (c : Thread nD τ) (0 : CellTallies nD τ sig Unit) W)

/-- The launch element: the pipeline library's at the staging cells and the pipeline's transfers. -/
def u₀k : UR sig nD τ := initOf (Pipeline.cells cfgs cellOf_inj) (Pipeline.launchToks cfgs cellOf_inj)

/-! ## The host segments -/

theorem fresh0 : ∀ op ∈ (hostOps0 : List (HloOp τ sig (Elt F))), op.fresh = ∅ := by
  intro _ h; (repeat (cases h with | head => rfl | tail _ h => ?_)); exact nomatch h
theorem fresh01 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The norm's five operations, over the unscoped buffers; -/
def seg0 : Pipeline.HostSeg (Name := ℕ) (U := UR sig nD τ) (pcfgs (F := F)) defs₀ 𝒱k Lk lvk :=
  Pipeline.HostSeg.ofOps _ _ _ _ _ (Pipeline.ucRefs τ sig) hostOps0
    (fun op h => Pipeline.sub_ucRefs op ((List.forall_iff_forall_mem.mp hostOps0_sub) op h)) fresh0 (V₀ m) Rk
/-- the fifteen that follow, up to the region; -/
def seg01 : Pipeline.HostSeg (Name := ℕ) (U := UR sig nD τ) (pcfgs (F := F)) defs₀ 𝒱k Lk lvk :=
  Pipeline.HostSeg.ofOps _ _ _ _ _ (Pipeline.ucRefs τ sig) hostOps0_1
    (fun op h => Pipeline.sub_ucRefs op ((List.forall_iff_forall_mem.mp hostOps0_1_sub) op h)) fresh01 (Vn m) Rk
/-- and the three after it. -/
def seg1 : Pipeline.HostSeg (Name := ℕ) (U := UR sig nD τ) (pcfgs (F := F)) defs₀ 𝒱k Lk lvk :=
  Pipeline.HostSeg.ofOps _ _ _ _ _ (Pipeline.ucRefs τ sig) hostOps1
    (fun op h => Pipeline.sub_ucRefs op ((List.forall_iff_forall_mem.mp hostOps1_sub) op h)) fresh1 (Vout m) Rk

/-! ## The windows' arrays, dealt and collected -/

/-- The buffers behind the seven windows' arrays: six, the first two windows sharing one. -/
theorem arrImage : Finset.univ.image (Pipeline.arrRef spec0)
    = [main_v12, main_v7, main_v9, main_v10, main_v11, main_v13].toFinset := by decide

/-- A conjunction over those buffers, one by one. -/
theorem bigSep_arrs {M : Type} [URA M] (Φ : Ref sig .tc → sProp M) :
    bigSep (Finset.univ.image (Pipeline.arrRef spec0)) Φ
      = iprop(Φ main_v12 ∗ Φ main_v7 ∗ Φ main_v9 ∗ Φ main_v10 ∗ Φ main_v11 ∗ Φ main_v13) :=
  bigSep_eq_bigSepL_of_eq [main_v12, main_v7, main_v9, main_v10, main_v11, main_v13] arrImage (by decide) Φ

/-- Every window's array is a whole buffer: the pipeline's arrays are points-tos of whole buffers, each at its share. -/
theorem arrays_pts (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The share each window's array is held at. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The buffers behind the windows' arrays, each whole at contents `V'`, are the pipeline's arrays at those contents:
    the array the first two windows share in two halves, every other array whole. -/
theorem arrays_iff (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      ⊣⊢ (dats m 0 c).arrays (fun w => V' (Pipeline.arrRef spec0 w)) := by
  have e0 : ∀ q, ((c.tc : Thread nD τ).loc (Pipeline.arrRef spec0 0) ↦{q} V' (Pipeline.arrRef spec0 0) : sProp 𝕄) = ((c.tc : Thread nD τ).loc main_v12 ↦{q} V' main_v12) := fun _ => rfl
  have e1 : ∀ q, ((c.tc : Thread nD τ).loc (Pipeline.arrRef spec0 1) ↦{q} V' (Pipeline.arrRef spec0 1) : sProp 𝕄) = ((c.tc : Thread nD τ).loc main_v12 ↦{q} V' main_v12) := fun _ => rfl
  have e2 : ∀ q, ((c.tc : Thread nD τ).loc (Pipeline.arrRef spec0 2) ↦{q} V' (Pipeline.arrRef spec0 2) : sProp 𝕄) = ((c.tc : Thread nD τ).loc main_v7 ↦{q} V' main_v7) := fun _ => rfl
  have e3 : ∀ q, ((c.tc : Thread nD τ).loc (Pipeline.arrRef spec0 3) ↦{q} V' (Pipeline.arrRef spec0 3) : sProp 𝕄) = ((c.tc : Thread nD τ).loc main_v9 ↦{q} V' main_v9) := fun _ => rfl
  have e4 : ∀ q, ((c.tc : Thread nD τ).loc (Pipeline.arrRef spec0 4) ↦{q} V' (Pipeline.arrRef spec0 4) : sProp 𝕄) = ((c.tc : Thread nD τ).loc main_v10 ↦{q} V' main_v10) := fun _ => rfl
  have e5 : ∀ q, ((c.tc : Thread nD τ).loc (Pipeline.arrRef spec0 5) ↦{q} V' (Pipeline.arrRef spec0 5) : sProp 𝕄) = ((c.tc : Thread nD τ).loc main_v11 ↦{q} V' main_v11) := fun _ => rfl
  have e6 : ∀ q, ((c.tc : Thread nD τ).loc (Pipeline.arrRef spec0 6) ↦{q} V' (Pipeline.arrRef spec0 6) : sProp 𝕄) = ((c.tc : Thread nD τ).loc main_v13 ↦{q} V' main_v13) := fun _ => rfl
  unfold Pipeline.arrBufs
  rw [arrays_pts, bigSep_arrs, bigSep_W0, share_0, share_1, share_2, share_3, share_4, share_5, share_6, e0, e1, e2, e3, e4, e5, e6]
  constructor
  · iintro ⟨H12, H7, H9, H10, H11, H13⟩
    ihave H := (pointsTo_share (PosShare.mem_left_op_right fullShare)).1 $$ H12
    icases H with ⟨Hl, Hr⟩
    isplitl [Hl]; · iexact Hl
    isplitl [Hr]; · iexact Hr
    isplitl [H7]; · iexact H7
    isplitl [H9]; · iexact H9
    isplitl [H10]; · iexact H10
    isplitl [H11]; · iexact H11
    iexact H13
  · iintro ⟨Hl, Hr, H7, H9, H10, H11, H13⟩
    isplitl [Hl Hr]
    · iapply (pointsTo_share (PosShare.mem_left_op_right fullShare)).2
      isplitl [Hl] <;> iassumption
    isplitl [H7]; · iexact H7
    isplitl [H9]; · iexact H9
    isplitl [H10]; · iexact H10
    isplitl [H11]; · iexact H11
    iexact H13

/-! ## The region's ends -/

/-- The buffers when the region is left, read at a TensorCore reference. -/
abbrev Vo (c : Dev nD) (b : Ref sig .tc) : Buf (Elt F) ((c : Thread nD τ).loc b) := Vout m c (Proc.devRef .tc b)

/-- What bypasses the region: every unscoped buffer that is no window's array. -/
abbrev Zk (c : Dev nD) : sProp 𝕄 := Pipeline.unscopedRest spec0 c (V m c)

/-- Every array after the region is what `Vout` says: an input array is never written back, and the output array is
    where `Vout` differs from the entry. -/
theorem vo_ne (c : Dev nD) (b : Ref sig .tc) (h : b ≠ main_v13) : Vo m c b = V m c b :=
  Function.update_of_ne (StableHlo.devRef_ne_of_ne h) _ _

theorem arrAt_out (c : Dev nD) : ∀ w : Fin cfg0.W, (dats m 0 c).arrAt w cfg0.N = Vo m c (Pipeline.arrRef spec0 w)
  | ⟨0, _⟩ => ((dats m 0 c).arrAt_in 0 rfl _).trans (vo_ne m c main_v12 (by decide)).symm
  | ⟨1, _⟩ => ((dats m 0 c).arrAt_in 1 rfl _).trans (vo_ne m c main_v12 (by decide)).symm
  | ⟨2, _⟩ => ((dats m 0 c).arrAt_in 2 rfl _).trans (vo_ne m c main_v7 (by decide)).symm
  | ⟨3, _⟩ => ((dats m 0 c).arrAt_in 3 rfl _).trans (vo_ne m c main_v9 (by decide)).symm
  | ⟨4, _⟩ => ((dats m 0 c).arrAt_in 4 rfl _).trans (vo_ne m c main_v10 (by decide)).symm
  | ⟨5, _⟩ => ((dats m 0 c).arrAt_in 5 rfl _).trans (vo_ne m c main_v11 (by decide)).symm
  | ⟨6, _⟩ => (Function.update_self (Proc.devRef (τ := τ) .tc main_v13) ((dats m 0 c).arrAt 6 cfg0.N) (Vh m c)).symm

/-- The buffers that bypass the region are the same at entry and at exit: the output array is not among them. -/
theorem rest_out (c : Dev nD) :
    (Pipeline.unscopedRest (Ix := Unit) (Name := ℕ) (U := UR sig nD τ) (Lvl := ℕ) spec0 c (Vo m c) : sProp 𝕄) = Zk m c := by
  unfold Pipeline.unscopedRest
  exact bigSep_congr fun b hb => by
    have hne : b ≠ main_v13 := fun h =>
      (Finset.mem_sdiff.mp hb).2 (Finset.mem_image.mpr ⟨6, Finset.mem_univ _, h.symm ▸ rfl⟩)
    rw [vo_ne m c b hne]

/-- ENTRY: the unscoped buffers as the twenty operations left them are the windows' arrays, dealt to the pipeline,
    and the rest, which bypasses the region. -/
theorem hentry_k (c : Dev nD) :
    iprop((StableHlo.held (c : Thread nD τ) (Pipeline.ucRefs τ sig) (Vh m c) ∗ Rk c)
        ∗ Pipeline.ownSems0 (Ix := Unit) (Name := ℕ) (U := UR sig nD τ) (Lvl := ℕ) (Val := Elt F) (τ := τ) (fun k : PEmpty => k.elim) c
        ∗ (levAts Lk lvk : sProp 𝕄))
      ⊢ |={Set.univ}=> iprop((dats m 0 c).arrays ((dats m 0 c).arrAt · 0)
          ∗ Pipeline.prefHeld (pcfgs (F := F) 0).pre c (fun _ => fullShare) (admk (F := F) 0).1
          ∗ (dats m 0 c).owesAt () 0 ∗ (BI.emp : sProp 𝕄) ∗ Zk m c) := by
  rw [show StableHlo.held (c : Thread nD τ) (Pipeline.ucRefs τ sig) (Vh m c) = unscopedBufs c (V m c)
      from (Pipeline.unscopedBufs_held (Ix := Unit) (Name := ℕ) (U := UR sig nD τ) (Lvl := ℕ) c (Vh m c)).symm,
    Pipeline.unscopedBufs_split₀ cfgs 0 winFacts₀0.arr_unscoped c (V m c)]
  iintro ⟨⟨⟨Ha, Hz⟩, HO⟩, -, -⟩
  ihave Ha := (arrays_iff m c (V m c)).1 $$ Ha
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hz

/-- EXIT: the arrays as the region left them — the two halves of the shared array joined — and the rest that bypassed
    it are the unscoped buffers at `Vout`. -/
theorem hexit_k (c : Dev nD) :
    iprop((dats m 0 c).arrays ((dats m 0 c).arrAt · cfg0.N) ∗ (dats m 0 c).owesAt () (Fin.last cfg0.N) ∗ (BI.emp : sProp 𝕄) ∗ Zk m c)
      ⊢ |={Set.univ}=> iprop(StableHlo.held (c : Thread nD τ) (Pipeline.ucRefs τ sig) (Vout m c) ∗ Rk c) := by
  rw [show StableHlo.held (c : Thread nD τ) (Pipeline.ucRefs τ sig) (Vout m c) = unscopedBufs c (Vo m c)
      from (Pipeline.unscopedBufs_held (Ix := Unit) (Name := ℕ) (U := UR sig nD τ) (Lvl := ℕ) c (Vout m c)).symm,
    Pipeline.unscopedBufs_split₀ cfgs 0 winFacts₀0.arr_unscoped c (Vo m c), rest_out,
    show ((dats m 0 c).arrAt · cfg0.N) = fun w => Vo m c (Pipeline.arrRef spec0 w) from funext (arrAt_out m c)]
  iintro ⟨Ha, HO, -, Hz⟩
  ihave Ha := (arrays_iff m c (Vo m c)).2 $$ Ha
  imodintro
  isplitr [HO]
  · isplitl [Ha] <;> iassumption
  · unfold Pipeline.Dat.owesAt Pipeline.owesWithin
    icases HO with ⟨%W, -, HO⟩; iexists W; iexact HO

/-- The invariant before the first point: the scratch accumulator at anything. -/
theorem hin_k (c : Dev nD) :
    iprop((BI.emp : sProp 𝕄) ∗ Pipeline.prefHeld (pcfgs (F := F) 0).pre c (fun _ => fullShare) (admk (F := F) 0).1
        ∗ Pipeline.scopedRest (Ix := Unit) (Name := ℕ) (U := UR sig nD τ) (Lvl := ℕ) (Val := Elt F) spec0 c)
      ⊢ (dats m 0 c).Φ 0 := by
  rw [scopedRest0_eq, show (dats m 0 c).Φ 0 = Φc m c 0 from rfl]; unfold Φc
  simp only [owns_whole]
  iintro ⟨-, -, ⟨%f, Hs⟩⟩
  iexists f
  isplitr; · ipureintro; exact fun h => absurd rfl h
  iexact Hs

/-- The invariant after the last point gives the scratch accumulator back. -/
theorem hout_k (c : Dev nD) :
    (dats m 0 c).Φ (Fin.last cfg0.N)
      ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [Pipeline.ownSems0_none, scopedRest0_eq, show (dats m 0 c).Φ (Fin.last cfg0.N) = Φc m c (Fin.last cfg0.N) from rfl]; unfold Φc
  simp only [owns_whole]
  iintro ⟨%d, -, H⟩
  isplitr; · iempintro
  isplitr; · iempintro
  iexists d
  iexact H

/-! ## The region and the run -/

set_option backward.isDefEq.respectTransparency.types false in
/-- THE REGION: entered from what the twenty operations left — the windows' arrays into the pipeline (the rounded
    rows in two halves), every other unscoped buffer bypassing, the scratch accumulator into the invariant —, left
    with the output array at what the write-backs made of it. -/
def reg0 (hbody : ∀ c, BodyObligation (dats m 0 c) (defs₀ (F := F)) Variants.none () Set.univ) :
    Pipeline.RegionSeg (pcfgs (F := F)) admk (dats m) () defs₀ 𝒱k Lk lvk 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ Lk lvk 0 fun _ _ => rfl
  pre c := iprop(StableHlo.held (c : Thread nD τ) (Pipeline.ucRefs τ sig) (Vh m c) ∗ Rk c)
  post c := iprop(StableHlo.held (c : Thread nD τ) (Pipeline.ucRefs τ sig) (Vout m c) ∗ Rk c)
  X c := iprop(emp)
  Y c := iprop(emp)
  Z c := Zk m c
  hentry c := hentry_k m c
  hin c := hin_k m c
  hout c := hout_k m c
  hexit c := hexit_k m c

/-- @main as the list of the four. -/
abbrev segsk (hbody : ∀ c, BodyObligation (dats m 0 c) (defs₀ (F := F)) Variants.none () Set.univ) :
    List (Pipeline.Seg (pcfgs (F := F)) admk (dats m) () defs₀ 𝒱k Lk lvk) :=
  [.host (seg0 m), .host (seg01 m), .region (reg0 m hbody), .host (seg1 m)]

/-! ## The arguments are never written -/

theorem not_written0 (b : Ref sig .tc)
    (hb : b ≠ main_call0_v0 ∧ b ≠ main_call0_cst ∧ b ≠ main_call0_v1 ∧ b ≠ main_call0_v2 ∧ b ≠ main_v0) :
    ∀ op ∈ (hostOps0 : List (HloOp τ sig (Elt F))), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

theorem not_written01 (b : Ref sig .tc)
    (hb : b ≠ main_cst ∧ b ≠ main_v1 ∧ b ≠ main_v2 ∧ b ≠ main_v3 ∧ b ≠ main_v4 ∧ b ≠ main_v5 ∧ b ≠ main_cst_0 ∧ b ≠ main_v6
      ∧ b ≠ main_v7 ∧ b ≠ main_cst_1 ∧ b ≠ main_v8 ∧ b ≠ main_v9 ∧ b ≠ main_v10 ∧ b ≠ main_v11 ∧ b ≠ main_v12) :
    ∀ op ∈ (hostOps0_1 : List (HloOp τ sig (Elt F))), Proc.devRef .tc b ∉ op.writes := by
  obtain ⟨h0, h1, h2, h3, h4, h5, h6, h7, h8, h9, h10, h11, h12, h13, h14⟩ := hb
  intro op hop
  simp only [List.mem_cons, List.mem_nil_iff, or_false] at hop
  rcases hop with rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

theorem not_written1 (b : Ref sig .tc) (hb : b ≠ main_v14 ∧ b ≠ main_cst_2 ∧ b ≠ main_v15) :
    ∀ op ∈ (hostOps1 : List (HloOp τ sig (Elt F))), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, StableHlo.binary_writes, StableHlo.nullary_writes, Finset.mem_singleton] <;>
    exact StableHlo.devRef_ne_of_ne ‹_›

/-- A buffer no operation writes and that is not the output array holds at the end what it held at launch. -/
theorem vend_of_not_written (c : Dev nD) (b : Ref sig .tc)
    (h0 : b ≠ main_call0_v0 ∧ b ≠ main_call0_cst ∧ b ≠ main_call0_v1 ∧ b ≠ main_call0_v2 ∧ b ≠ main_v0)
    (h01 : b ≠ main_cst ∧ b ≠ main_v1 ∧ b ≠ main_v2 ∧ b ≠ main_v3 ∧ b ≠ main_v4 ∧ b ≠ main_v5 ∧ b ≠ main_cst_0 ∧ b ≠ main_v6
      ∧ b ≠ main_v7 ∧ b ≠ main_cst_1 ∧ b ≠ main_v8 ∧ b ≠ main_v9 ∧ b ≠ main_v10 ∧ b ≠ main_v11 ∧ b ≠ main_v12)
    (h13 : b ≠ main_v13) (h1 : b ≠ main_v14 ∧ b ≠ main_cst_2 ∧ b ≠ main_v15) :
    Vend m c (Proc.devRef .tc b) = m ((c.tc : Thread nD τ).loc b) :=
  (StableHlo.after_of_forall_not_mem (b := Proc.devRef .tc b) hostOps1 (Vout m c) (not_written1 b h1)).trans <|
    (vo_ne m c b h13).trans <|
      (StableHlo.after_of_forall_not_mem (b := Proc.devRef .tc b) hostOps0_1 (Vn m c) (not_written01 b h01)).trans <|
        StableHlo.after_of_forall_not_mem (b := Proc.devRef .tc b) hostOps0 (V₀ m c) (not_written0 b h0)

theorem vend_arg0 (c : Dev nD) : Vend m c (Proc.devRef .tc main_arg0) = m ((c.tc : Thread nD τ).loc main_arg0) :=
  vend_of_not_written m c main_arg0 (by decide) (by decide) (by decide) (by decide)
theorem vend_arg1 (c : Dev nD) : Vend m c (Proc.devRef .tc main_arg1) = m ((c.tc : Thread nD τ).loc main_arg1) :=
  vend_of_not_written m c main_arg1 (by decide) (by decide) (by decide) (by decide)

/-- A TensorCore reference that is not scoped is among the buffers the host operations run within. -/
theorem mem_ucRefs (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

set_option backward.isDefEq.respectTransparency.types false in
/-- At the compiled mesh, at any float instance, from any memory with zero counters: every weakly fair execution of
    @main on the TensorCores terminates, and every final memory holds at the result's buffer what the three closing
    operations make of the output array as the region left it, and both arguments as launched. -/
theorem run_main (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v15) = Vend m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admk (dats m) () cellOf_inj EPk defs₀ 𝒱k Lk lvk m ρ main (segsk m hbody)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀k)
    (hu₀ := by
      unfold u₀k
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rk c))
    (Tₙ := fun c => StableHlo.held (c : Thread nD τ) (Pipeline.ucRefs τ sig) (Vend m c))
    (hch := ⟨fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v15) = Vend m c (Proc.devRef .tc main_v15)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c.tc : Thread nD τ).1, b)) (fun b => Vend m c b) s') $$ [Hh HSI]
      · isplitl [Hh] <;> iassumption
      icases Hr with ⟨%hr, HSI⟩
      imodintro
      isplitr
      · ipureintro
        exact ⟨hr _ (mem_ucRefs main_v15 rfl), (hr _ (mem_ucRefs main_arg0 rfl)).trans (vend_arg0 m c),
          (hr _ (mem_ucRefs main_arg1 rfl)).trans (vend_arg1 m c)⟩
      iexact HSI)
    (hQ := fun _ h => h)

end Cert.Kernel.Hand

end
-- ==== Proof.KI.Data.lean ====
/-
  The pipeline's proof data for the pairwise-distance kernel, at any float instance.

  The grid is 8 × 8 points, walked row-major: point `t` is block row `t / 8` and block column `t % 8` of the
  4096 × 4096 matrix of squared distances. At each point the body reads the row block and the column block of the
  normalised embeddings (two windows on ONE array), the row blocks of the squared norms and of the coordinate sums,
  and the column blocks of their transposes; it forms the 512 × 512 block of clamped squared distances, zeroes its
  diagonal entries (row index = column index in the whole matrix), sums the block and adds the sum to a 1 × 1
  accumulator kept in scratch memory. The accumulator is zeroed at the first point and copied to the 1 × 1 output
  window at the last point, the only point at which that window is written back.

  So what the scratch holds after point `t` is a recursion on the point (`accAfter`): the body's own sum-and-add
  applied to the block of point `t` and to what the point before left, starting from the zero the first point stores.
-/
import proofs.«143332_j841813590238_1_alg».proof.Proof.Gen.KernelIdeal.Launch
import proofs.«143332_j841813590238_1_alg».proof.Proof.Gen.KernelIdeal.Skeleton
import proofs.«143332_j841813590238_1_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m (c, b)
/-- after the norm's five operations; -/
abbrev Vn (c : Dev nD) : Valuation τ sig (Elt F) := StableHlo.after hostOps0 (V₀ m c)
/-- and after the fifteen that normalise the rows and form the norms, the sums and their transposes: what the
    region is entered with. -/
abbrev Vh (c : Dev nD) : Valuation τ sig (Elt F) := StableHlo.after hostOps0_1 (Vn m c)
/-- The same read at a TensorCore reference. -/
abbrev V (c : Dev nD) (b : Ref sig .tc) : Buf (Elt F) ((c : Thread nD τ).loc b) := Vh m c (Proc.devRef .tc b)

/-! ## The blocks a point reads -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block and the column block of the normalised embeddings, -/
abbrev eRow (c : Dev nD) (t : Fin cfg0.N) : Vec F S512x1024 .bf16 := iblk m c 0 t
abbrev eCol (c : Dev nD) (t : Fin cfg0.N) : Vec F S512x1024 .bf16 := iblk m c 1 t
/-- the row blocks of the squared norms and of the coordinate sums, -/
abbrev nRow (c : Dev nD) (t : Fin cfg0.N) : Vec F S512x1 .f32 := iblk m c 2 t
abbrev sRow (c : Dev nD) (t : Fin cfg0.N) : Vec F S512x1 .f32 := iblk m c 3 t
/-- and the column blocks of their transposes. -/
abbrev nCol (c : Dev nD) (t : Fin cfg0.N) : Vec F S1x512 .f32 := iblk m c 4 t
abbrev sCol (c : Dev nD) (t : Fin cfg0.N) : Vec F S1x512 .f32 := iblk m c 5 t

/-! ## What a point computes -/

/-- The block column of point `t` as a word, the first row of its block row as a word, and the row counter. -/
abbrev colWord (t : Fin cfg0.N) : BitVec 32 := BitVec.ofNat 32 ((grid0.coords t) 1).val
abbrev rowBase (t : Fin cfg0.N) : BitVec 32 := Scalar.muli (BitVec.ofNat 32 ((grid0.coords t) 0).val) 512#32
abbrev rowIota : IVec S512x512 32 := iota .tc S512x512 32 [0] iota_S512x512_d0_w32

/-- The 512 × 512 block of clamped squared distances at point `t`. -/
def distBlock (c : Dev nD) (t : Fin cfg0.N) : FVec F S512x512 .f32 :=
  k0_pay3 (eRow m c t) (eCol m c t) (nRow m c t) (nCol m c t) (sRow m c t) (sCol m c t)

/-- The accumulator after point `t`, from what it held before: the block's off-diagonal sum added. -/
def stepAcc (c : Dev nD) (t : Fin cfg0.N) (prev : Vec F S1x1 .f32) : Vec F S1x1 .f32 :=
  k0_pay1 (colWord t) (distBlock m c t) (rowBase t) rowIota prev

/-- What the scratch accumulator holds after point `n`: the zero the first point stores, then one step per point. -/
def accAfter (c : Dev nD) : ℕ → Vec F S1x1 .f32
  | 0 => if h : 0 < cfg0.N then stepAcc m c ⟨0, h⟩ (k0_pay2 (F := F)) else k0_pay2 (F := F)
  | n + 1 => if h : n + 1 < cfg0.N then stepAcc m c ⟨n + 1, h⟩ (accAfter c n) else accAfter c n

/-! ## The invariant and the proof data -/

/-- The scratch accumulator as a memref. -/
abbrev accM : Memref sig .tc .vmem S1x1 .f32 := Memref.whole cc0_scratch0

/-- Between points: the accumulator at what the point before left (before the first point, at anything). -/
def Φc (c : Dev nD) (t : Fin (cfg0.N + 1)) : sProp 𝕄 :=
  iprop(∃ d : Vec F S1x1 .f32, ⌜t.val ≠ 0 → d = accAfter m c (t.val - 1)⌝ ∗ owns (c : Thread nD τ) accM fullShare d)

/-- The proof data on core `c`. The arrays at their region-entry contents; an input window's buffer left at its
    block; the output window's at the accumulator (consulted at the last point only: elsewhere the window is idle);
    the two windows on the embeddings' array hold one half of it each, every other array is held whole. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAfter m c t.val
  Φ t := Φc m c t
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The one pipeline's proof data. -/
def dats (_ : Fin 1) (c : Dev nD) : Dat τ (Elt F) Unit ℕ (UR sig nD τ) ℕ cfg0 c := dat m c

end Cert.KernelIdeal.Hand

end
-- ==== Proof.KI.Runs.lean ====
/-
  The kernel body at one grid point, and the pipeline's obligation for it.

  Three control cases. At the grid's first point the body zeroes the scratch accumulator, then adds the block's
  off-diagonal sum to it; at the points in between it only adds; at the last point it adds and then copies the
  accumulator into the output window. Each case is run once, on any whole staging memrefs at any contents
  (`run_first`, `run_mid`, `run_last`): the input buffers come back untouched, the accumulator at the step's value,
  and in the last case the output buffer at the same value. The obligation at point `t` then takes the case the
  point's coordinates decide: every input buffer holds its window's block there, fetched or kept from the point
  before (the block index did not move), and the output window, idle before the last point, is handed back as found.
-/
import proofs.«143332_j841813590238_1_alg».proof.Proof.KI.Data

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals -/

/-- The first conditional's test (is this the grid's first point?) and the second's (is it the last?), as the body
    computes them from the coordinates. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev isLast (i : grid0.Coords) : Prop := k0_cond2 i = 1#1

/-- Over the grid: the first test holds at point 0 only, the second at point 63 only. -/
theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 63 :=
  (by decide +kernel : ∀ t : Fin grid0.N, isLast (grid0.coords t) ↔ t.val = 63)
/-- Before the last point the output window is idle and is not written back; at the last point it is live. -/
theorem idle_out : ∀ t : Fin cfg0.N, ¬isLast (grid0.coords t) → cfg0.idle 6 (grid0.coords t) = true :=
  (by decide +kernel : ∀ t : Fin grid0.N, ¬isLast (grid0.coords t) → cfg0.idle 6 (grid0.coords t) = true)
theorem noflush_out : ∀ t : Fin cfg0.N, ¬isLast (grid0.coords t) → (cfg0.win 6).flush t = false :=
  (by decide +kernel : ∀ t : Fin grid0.N, ¬isLast (grid0.coords t) → win0_6.flush t = false)
theorem live_out : ∀ t : Fin cfg0.N, isLast (grid0.coords t) → cfg0.idle 6 (grid0.coords t) = false :=
  (by decide +kernel : ∀ t : Fin grid0.N, isLast (grid0.coords t) → cfg0.idle 6 (grid0.coords t) = false)

/-! ## The body, case by case -/

set_option maxHeartbeats 1000000 in
/-- The first point: the accumulator zeroed, then the block's sum added to the zero. -/
theorem run_first (c : Dev nD) (i : grid0.Coords) (h1 : isFirst i) (h2 : ¬isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare x8
            ∗ owns (c : Thread nD τ) accM fullShare (k0_pay1 (BitVec.ofNat 32 (i 1).val) (k0_pay3 x2 x3 x4 x6 x5 x7) (Scalar.muli (BitVec.ofNat 32 (i 0).val) 512#32) rowIota (k0_pay2 (F := F)))) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; swap; · iexact Ha
  ipureintro
  sl_unfold_words
  have hz : (![0, 0] : Fin 2 → Nat) = fun _ => 0 := by funext a; fin_cases a <;> rfl
  rw [View.read_writes_eq_canon _ _ _ (fun y => ⟨_, List.mem_cons_self, View.mem_set_unit_zero hz Facts₀.inb_S1x1_S1x1_0_0 y⟩), View.canon_cons_unit_zero hz,
    View.readCov_unit_zero (S := S1x1) _ hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

set_option maxHeartbeats 1000000 in
/-- A point in between: the block's sum added to what the accumulator held. -/
theorem run_mid (c : Dev nD) (i : grid0.Coords) (h1 : ¬isFirst i) (h2 : ¬isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare x8
            ∗ owns (c : Thread nD τ) accM fullShare (k0_pay1 (BitVec.ofNat 32 (i 1).val) (k0_pay3 x2 x3 x4 x6 x5 x7) (Scalar.muli (BitVec.ofNat 32 (i 0).val) 512#32) rowIota acc)) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; swap; · iexact Ha
  ipureintro
  sl_unfold_words
  have hz : (![0, 0] : Fin 2 → Nat) = fun _ => 0 := by funext a; fin_cases a <;> rfl
  rw [View.read_writes_eq_canon _ _ _ (fun y => ⟨_, List.mem_singleton_self _, View.mem_set_unit_zero hz Facts₀.inb_S1x1_S1x1_0_0 y⟩), View.canon_unit_zero hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

set_option maxHeartbeats 1000000 in
/-- The last point: the sum added, and the accumulator copied to the output window's buffer. -/
theorem run_last (c : Dev nD) (i : grid0.Coords) (h1 : ¬isFirst i) (h2 : isLast i)
    (a2 : Memref sig .tc .vmem S512x1024 .bf16) (ha2 : a2.IsWhole) (a3 : Memref sig .tc .vmem S512x1024 .bf16) (ha3 : a3.IsWhole)
    (a4 : Memref sig .tc .vmem S512x1 .f32) (ha4 : a4.IsWhole) (a5 : Memref sig .tc .vmem S512x1 .f32) (ha5 : a5.IsWhole)
    (a6 : Memref sig .tc .vmem S1x512 .f32) (ha6 : a6.IsWhole) (a7 : Memref sig .tc .vmem S1x512 .f32) (ha7 : a7.IsWhole)
    (a8 : Memref sig .tc .vmem S1x1 .f32) (ha8 : a8.IsWhole)
    (x2 : Vec F S512x1024 .bf16) (x3 : Vec F S512x1024 .bf16) (x4 : Vec F S512x1 .f32) (x5 : Vec F S512x1 .f32)
    (x6 : Vec F S1x512 .f32) (x7 : Vec F S1x512 .f32) (x8 : Vec F S1x1 .f32) (acc : Vec F S1x1 .f32)
    (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8 ∗ owns (c : Thread nD τ) accM fullShare acc
        ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
            ∗ owns (c : Thread nD τ) a8 fullShare (k0_pay1 (BitVec.ofNat 32 (i 1).val) (k0_pay3 x2 x3 x4 x6 x5 x7) (Scalar.muli (BitVec.ofNat 32 (i 0).val) 512#32) rowIota acc)
            ∗ owns (c : Thread nD τ) accM fullShare (k0_pay1 (BitVec.ofNat 32 (i 1).val) (k0_pay3 x2 x3 x4 x6 x5 x7) (Scalar.muli (BitVec.ofNat 32 (i 0).val) 512#32) rowIota acc)) -∗ K ⟨⟩))
      ⊢ wp frame (wpE (defs₀ (F := F)) Variants.none c none) E (cc0__contrastive_kernel i a2 ha2 a3 ha3 a4 ha4 a5 ha5 a6 ha6 a7 ha7 a8 ha8 accM (Memref.isWhole_whole _)) K := by
  have hz : (![0, 0] : Fin 2 → Nat) = fun _ => 0 := by funext a; fin_cases a <;> rfl
  simp only [cc0__contrastive_kernel_eq_skeleton]; unfold cc0__contrastive_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, Ha⟩, Hk⟩
  obtain rfl := ha2.eq_unread hf2; obtain rfl := ha3.eq_unread hf3; obtain rfl := ha4.eq_unread hf4; obtain rfl := ha5.eq_unread hf5
  obtain rfl := ha6.eq_unread hf6; obtain rfl := ha7.eq_unread hf7; obtain rfl := ha8.eq_unread hf8
  obtain rfl := (Memref.isWhole_whole cc0_scratch0).eq_unread hfa
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    sl_unfold_words
    rw [View.read_writes_eq_canon _ _ _ (fun y => ⟨_, List.mem_singleton_self _, View.mem_set_unit_zero hz Facts₀.inb_S1x1_S1x1_0_0 y⟩), View.canon_unit_zero hz,
      View.readCov_unit_zero (S := S1x1) _ hz]
    simp only [View.readAt_eq_ld, hf2, hf3, hf4, hf5, hf6, hf7, hfa, View.ld_unit_zero (S := S512x1024) hz, View.ld_unit_zero (S := S512x1) hz,
      View.ld_unit_zero (S := S1x512) hz, View.ld_unit_zero (S := S1x1) hz]
  iexists _; isplitr; swap; · iexact Ha
  ipureintro
  sl_unfold_words
  rw [View.read_writes_eq_canon _ _ _ (fun y => ⟨_, List.mem_singleton_self _, View.mem_set_unit_zero hz Facts₀.inb_S1x1_S1x1_0_0 y⟩), View.canon_unit_zero hz]
  simp only [View.readAt_eq_ld, hf2, hf3, hf4, hf5, hf6, hf7, hfa, View.ld_unit_zero (S := S512x1024) hz, View.ld_unit_zero (S := S512x1) hz,
    View.ld_unit_zero (S := S1x512) hz, View.ld_unit_zero (S := S1x1) hz]

end Cert.KernelIdeal.Hand

end
-- ==== Proof.KI.Body.lean ====
/-
  The kernel body at one grid point, and the pipeline's obligation for it.

  Three control cases. At the grid's first point the body zeroes the scratch accumulator, then adds the block's
  off-diagonal sum to it; at the points in between it only adds; at the last point it adds and then copies the
  accumulator into the output window. Each case is run once, on any whole staging memrefs at any contents
  (`run_first`, `run_mid`, `run_last`): the input buffers come back untouched, the accumulator at the step's value,
  and in the last case the output buffer at the same value. The obligation at point `t` then takes the case the
  point's coordinates decide: every input buffer holds its window's block there, fetched or kept from the point
  before (the block index did not move), and the output window, idle before the last point, is handed back as found.
-/
import proofs.«143332_j841813590238_1_alg».proof.Proof.KI.Runs

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each staging buffer holds when the body runs -/

/-- An input window's buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_in1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_in2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_in3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_in4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before_in5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

/-! ## The accumulator's recursion, unfolded at a point -/

theorem accAfter_first (c : Dev nD) (t : Fin cfg0.N) (h : t.val = 0) :
    accAfter m c t.val = stepAcc m c t (k0_pay2 (F := F)) := by
  obtain ⟨n, hn⟩ := t
  obtain rfl : n = 0 := h
  unfold accAfter; rw [dif_pos hn]

theorem accAfter_later (c : Dev nD) (t : Fin cfg0.N) (h : t.val ≠ 0) :
    accAfter m c t.val = stepAcc m c t (accAfter m c (t.val - 1)) := by
  obtain ⟨n, hn⟩ := t
  obtain ⟨k, rfl⟩ : ∃ k, n = k + 1 := ⟨n - 1, by have : n ≠ 0 := h; omega⟩
  show accAfter m c (k + 1) = _
  rw [accAfter, dif_pos hn]; rfl

/-! ## The obligation -/

set_option maxHeartbeats 1000000 in
theorem body_obligation (c : Dev nD) : BodyObligation (dats m 0 c) (defs₀ (F := F)) Variants.none () Set.univ := fun t => by
  rw [bigSep_W0, bigSep_W0]
  simp only [before_in0 m c, before_in1 m c, before_in2 m c, before_in3 m c, before_in4 m c, before_in5 m c]
  rw [show (dats m 0 c).Φ t.castSucc = Φc m c t.castSucc from rfl, show (dats m 0 c).Φ t.succ = Φc m c t.succ from rfl]
  unfold Φc Dat.owesAt Pipeline.owesWithin
  rw [show (dats m 0 c).owed t.castSucc = 0 from rfl, show (dats m 0 c).owed t.succ = 0 from rfl]
  by_cases hL : isLast (grid0.coords t)
  · have hF : ¬isFirst (grid0.coords t) := by
      rw [first_iff]; rw [last_iff] at hL; omega
    have ht0 : t.val ≠ 0 := by rw [last_iff] at hL; omega
    simp only [show idle0 6 (grid0.coords t) = false from live_out t hL]
    iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
    obtain rfl : d = accAfter m c (t.val - 1) := hd ht0
    iapply (run_last c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
      ((dats m 0 c).before 6 t d6) (accAfter m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hacc]; · iexact Hacc
    iintro ⟨H0, H1, H2, H3, H4, H5, H6, Hacc⟩
    have e : stepAcc m c t (accAfter m c (t.val - 1)) = accAfter m c t.val := (accAfter_later m c t ht0).symm
    isplitl [Hacc]
    · iexists _; isplitr; swap; · iexact Hacc
      ipureintro; intro _; exact e
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    rw [show (dats m 0 c).after 6 t = accAfter m c t.val from rfl, ← e]
    iexact H6
  · simp only [show idle0 6 (grid0.coords t) = true from idle_out t hL, show (win0 6).flush t = false from noflush_out t hL]
    by_cases hF : isFirst (grid0.coords t)
    · have ht0 : t.val = 0 := (first_iff t).mp hF
      iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
      iapply (run_first c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
        ((dats m 0 c).before 6 t d6) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hacc]; · iexact Hacc
      iintro ⟨H0, H1, H2, H3, H4, H5, H6, Hacc⟩
      have e : stepAcc m c t (k0_pay2 (F := F)) = accAfter m c t.val := (accAfter_first m c t ht0).symm
      isplitl [Hacc]
      · iexists _; isplitr; swap; · iexact Hacc
        ipureintro; intro _; exact e
      isplitl [HO]
      · iexists W; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      iexists d6; iexact H6
    · have ht0 : t.val ≠ 0 := fun h => hF ((first_iff t).mpr h)
      iintro ⟨⟨%d, %hd, Hacc⟩, ⟨%W, %hW, HO⟩, ⟨%d0, H0⟩, ⟨%d1, H1⟩, ⟨%d2, H2⟩, ⟨%d3, H3⟩, ⟨%d4, H4⟩, ⟨%d5, H5⟩, ⟨%d6, H6⟩⟩
      obtain rfl : d = accAfter m c (t.val - 1) := hd ht0
      iapply (run_mid c (grid0.coords t) hF hL (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6))
      (eRow m c t) (eCol m c t) (nRow m c t) (sRow m c t) (nCol m c t) (sCol m c t)
        ((dats m 0 c).before 6 t d6) (accAfter m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hacc]; · iexact Hacc
      iintro ⟨H0, H1, H2, H3, H4, H5, H6, Hacc⟩
      have e : stepAcc m c t (accAfter m c (t.val - 1)) = accAfter m c t.val := (accAfter_later m c t ht0).symm
      isplitl [Hacc]
      · iexists _; isplitr; swap; · iexact Hacc
        ipureintro; intro _; exact e
      isplitl [HO]
      · iexists W; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      iexists d6; iexact H6

end Cert.KernelIdeal.Hand

end
-- ==== Proof.KI.Ends.lean ====
/-
  The buffers when the kernel region is left and at the end of the program, and what the output array holds.

  The output window's block is the whole 1 × 1 array, and it is written back at the last grid point only: so after
  the region the array holds what the last point left in the window's buffer, the accumulator after point 63.
  The program then reshapes it to a scalar and divides by the number of ordered pairs.
-/
import proofs.«143332_j841813590238_1_alg».proof.Proof.KI.Data
import Idealize.ShloMosaic.Lib.StableHlo.Run

noncomputable section

namespace Cert.KernelIdeal.Hand

open Cert.KernelIdeal Cert.KernelIdeal.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers when the region is left: as it was entered, but for the output array, which holds what the
    write-backs made of it. -/
abbrev Vout (c : Dev nD) : Valuation τ sig (Elt F) :=
  Function.update (Vh m c) (Proc.devRef .tc main_v13) ((dats m 0 c).arrAt 6 cfg0.N)
/-- And at the end: after the three operations that follow the region. -/
abbrev Vend (c : Dev nD) : Valuation τ sig (Elt F) := StableHlo.after hostOps1 (Vout m c)

/-- The grid's last point. -/
abbrev tLast : Fin cfg0.N := ⟨63, by rw [show cfg0.N = 64 from N_0]; omega⟩

/-- The output array after the region, read through the last point's block (the whole array), is the accumulator
    after the last point. -/
theorem out_read (c : Dev nD) :
    ((cfg0.win 6).blk tLast).view.read (Elt F) ((dats m 0 c).arrAt 6 cfg0.N) = accAfter m c 63 := by
  have hN : cfg0.N = 64 := N_0
  have h := (dats m 0 c).read_blk_arrAt_eq_flushed 6
    (fun t t' hf hf' hne => absurd (Fin.ext (by
      have h1 := (flush0_6 t).mp hf; have h2 := (flush0_6 t').mp hf'; have := t.isLt; have := t'.isLt; omega)) hne)
    cfg0.N tLast tLast.isLt ((flush0_6 tLast).mpr (by decide))
  exact h.trans rfl

/-- The output array after the region is the accumulator after the last point. -/
theorem out_apply (c : Dev nD) :
    ((dats m 0 c).arrAt 6 cfg0.N : S1x1.Idx → Elt F .f32) = accAfter m c 63 := by
  rw [← out_read m c]
  funext y
  rw [View.read_apply]
  have hy : ((cfg0.win 6).blk tLast).view.emb y = y := by
    funext a
    apply Fin.ext
    have h1 := (((cfg0.win 6).blk tLast).view.emb y a).isLt
    have h2 := (y a).isLt
    match a with
    | ⟨0, _⟩ => exact (Nat.lt_one_iff.mp h1).trans (Nat.lt_one_iff.mp h2).symm
    | ⟨1, _⟩ => exact (Nat.lt_one_iff.mp h1).trans (Nat.lt_one_iff.mp h2).symm
  rw [hy]; rfl

/-- The program's result: the output array's one entry, as a scalar, over the number of ordered pairs. -/
theorem vend_eq (c : Dev nD) :
    (Vend m c (Proc.devRef .tc main_v15) : S_.Idx → Elt F .f32)
      = Host.divf (shapeCast S_ (Vout m c (Proc.devRef .tc main_v13) : S1x1.Idx → Elt F .f32) shapeCasts_S1x1_S_)
          (constant S_ .f32 0x4B7FF000#32) := by
  dsimp only [Vend, hostOps1]
  after_results
  rfl

/-- The output array when the region is left. -/
theorem vout_out (c : Dev nD) :
    (Vout m c (Proc.devRef .tc main_v13) : S1x1.Idx → Elt F .f32) = accAfter m c 63 := by
  rw [← out_apply m c]
  exact Function.update_self ..

end Cert.KernelIdeal.Hand

end
-- ==== Proof.KI.Launch.lean ====
/-
  The launch: @main as host operations, the kernel region, host operations, and the run it has.

  @main is twenty host operations (the row norms; then the normalised rows, their squared norms, their sums, the
  transposes of those, and the rows rounded to the narrower format), ONE kernel region, and three host operations
  (the 1 × 1 result reshaped to a scalar, a constant, their quotient). The region's pipeline has seven windows; the
  first two are on ONE array (the rounded rows, read once by block row and once by block column), so that array's
  points-to is dealt in two halves, one per window, when the region is entered and joined again when it is left.
  Every other array is held whole. The scratch accumulator is a scoped buffer: it reaches the body through the
  invariant, at anything before the first point.

  From the body obligation, at any float instance: from any memory whose semaphore counters are zero, every weakly
  fair execution of @main on the TensorCores terminates, and every final memory holds, at the result's buffer, what
  the three closing operations make of the output array as the write-backs left it, and holds both arguments as
  launched.
-/
import proofs.«143332_j841813590238_1_alg».proof.Proof.KI.Ends
import Idealize.ShloMosaic.Lib.Pipeline.Kit
import Idealize.ShloMosaic.Lib.Pipeline.Frame

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The segments' common data -/

/-- The pipeline library's algebra is the whole of the certificate's. -/
abbrev EPk : Emb (UR sig nD τ) (MT nD τ sig Unit (Elt F) ℕ (UR sig nD τ) ℕ) := emb₁

abbrev 𝒱k : Variants := Variants.none
/-- No core owes another anything: no level is assigned. -/
abbrev Lk : GSem nD τ sig → Finset Unit := fun _ => ∅
abbrev lvk : GSem nD τ sig → Unit → ℕ := fun _ _ => 0
/-- The prefetched tables' admissible contents: no table. -/
abbrev admk : (p : Fin 1) → (pcfgs (F := F) p).Adm := fun p => (cfgs p).toPCfg_adm

/-- What rides beside the buffers through the host operations: that the core owes nothing. -/
abbrev Rk (c : Dev nD) : sProp 𝕄 := iprop(∃ W, owes (c : Thread nD τ) (0 : CellTallies nD τ sig Unit) W)

/-- The launch element: the pipeline library's at the staging cells and the pipeline's transfers. -/
def u₀k : UR sig nD τ := initOf (Pipeline.cells cfgs cellOf_inj) (Pipeline.launchToks cfgs cellOf_inj)

/-! ## The host segments -/

theorem fresh0 : ∀ op ∈ (hostOps0 : List (HloOp τ sig (Elt F))), op.fresh = ∅ := by
  intro _ h; (repeat (cases h with | head => rfl | tail _ h => ?_)); exact nomatch h
theorem fresh01 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The norm's five operations, over the unscoped buffers; -/
def seg0 : Pipeline.HostSeg (Name := ℕ) (U := UR sig nD τ) (pcfgs (F := F)) defs₀ 𝒱k Lk lvk :=
  Pipeline.HostSeg.ofOps _ _ _ _ _ (Pipeline.ucRefs τ sig) hostOps0
    (fun op h => Pipeline.sub_ucRefs op ((List.forall_iff_forall_mem.mp hostOps0_sub) op h)) fresh0 (V₀ m) Rk
/-- the fifteen that follow, up to the region; -/
def seg01 : Pipeline.HostSeg (Name := ℕ) (U := UR sig nD τ) (pcfgs (F := F)) defs₀ 𝒱k Lk lvk :=
  Pipeline.HostSeg.ofOps _ _ _ _ _ (Pipeline.ucRefs τ sig) hostOps0_1
    (fun op h => Pipeline.sub_ucRefs op ((List.forall_iff_forall_mem.mp hostOps0_1_sub) op h)) fresh01 (Vn m) Rk
/-- and the three after it. -/
def seg1 : Pipeline.HostSeg (Name := ℕ) (U := UR sig nD τ) (pcfgs (F := F)) defs₀ 𝒱k Lk lvk :=
  Pipeline.HostSeg.ofOps _ _ _ _ _ (Pipeline.ucRefs τ sig) hostOps1
    (fun op h => Pipeline.sub_ucRefs op ((List.forall_iff_forall_mem.mp hostOps1_sub) op h)) fresh1 (Vout m) Rk

/-! ## The windows' arrays, dealt and collected -/

/-- The buffers behind the seven windows' arrays: six, the first two windows sharing one. -/
theorem arrImage : Finset.univ.image (Pipeline.arrRef spec0)
    = [main_v12, main_v7, main_v9, main_v10, main_v11, main_v13].toFinset := by decide

/-- A conjunction over those buffers, one by one. -/
theorem bigSep_arrs {M : Type} [URA M] (Φ : Ref sig .tc → sProp M) :
    bigSep (Finset.univ.image (Pipeline.arrRef spec0)) Φ
      = iprop(Φ main_v12 ∗ Φ main_v7 ∗ Φ main_v9 ∗ Φ main_v10 ∗ Φ main_v11 ∗ Φ main_v13) :=
  bigSep_eq_bigSepL_of_eq [main_v12, main_v7, main_v9, main_v10, main_v11, main_v13] arrImage (by decide) Φ

/-- Every window's array is a whole buffer: the pipeline's arrays are points-tos of whole buffers, each at its share. -/
theorem arrays_pts (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The share each window's array is held at. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The buffers behind the windows' arrays, each whole at contents `V'`, are the pipeline's arrays at those contents:
    the array the first two windows share in two halves, every other array whole. -/
theorem arrays_iff (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      ⊣⊢ (dats m 0 c).arrays (fun w => V' (Pipeline.arrRef spec0 w)) := by
  have e0 : ∀ q, ((c.tc : Thread nD τ).loc (Pipeline.arrRef spec0 0) ↦{q} V' (Pipeline.arrRef spec0 0) : sProp 𝕄) = ((c.tc : Thread nD τ).loc main_v12 ↦{q} V' main_v12) := fun _ => rfl
  have e1 : ∀ q, ((c.tc : Thread nD τ).loc (Pipeline.arrRef spec0 1) ↦{q} V' (Pipeline.arrRef spec0 1) : sProp 𝕄) = ((c.tc : Thread nD τ).loc main_v12 ↦{q} V' main_v12) := fun _ => rfl
  have e2 : ∀ q, ((c.tc : Thread nD τ).loc (Pipeline.arrRef spec0 2) ↦{q} V' (Pipeline.arrRef spec0 2) : sProp 𝕄) = ((c.tc : Thread nD τ).loc main_v7 ↦{q} V' main_v7) := fun _ => rfl
  have e3 : ∀ q, ((c.tc : Thread nD τ).loc (Pipeline.arrRef spec0 3) ↦{q} V' (Pipeline.arrRef spec0 3) : sProp 𝕄) = ((c.tc : Thread nD τ).loc main_v9 ↦{q} V' main_v9) := fun _ => rfl
  have e4 : ∀ q, ((c.tc : Thread nD τ).loc (Pipeline.arrRef spec0 4) ↦{q} V' (Pipeline.arrRef spec0 4) : sProp 𝕄) = ((c.tc : Thread nD τ).loc main_v10 ↦{q} V' main_v10) := fun _ => rfl
  have e5 : ∀ q, ((c.tc : Thread nD τ).loc (Pipeline.arrRef spec0 5) ↦{q} V' (Pipeline.arrRef spec0 5) : sProp 𝕄) = ((c.tc : Thread nD τ).loc main_v11 ↦{q} V' main_v11) := fun _ => rfl
  have e6 : ∀ q, ((c.tc : Thread nD τ).loc (Pipeline.arrRef spec0 6) ↦{q} V' (Pipeline.arrRef spec0 6) : sProp 𝕄) = ((c.tc : Thread nD τ).loc main_v13 ↦{q} V' main_v13) := fun _ => rfl
  unfold Pipeline.arrBufs
  rw [arrays_pts, bigSep_arrs, bigSep_W0, share_0, share_1, share_2, share_3, share_4, share_5, share_6, e0, e1, e2, e3, e4, e5, e6]
  constructor
  · iintro ⟨H12, H7, H9, H10, H11, H13⟩
    ihave H := (pointsTo_share (PosShare.mem_left_op_right fullShare)).1 $$ H12
    icases H with ⟨Hl, Hr⟩
    isplitl [Hl]; · iexact Hl
    isplitl [Hr]; · iexact Hr
    isplitl [H7]; · iexact H7
    isplitl [H9]; · iexact H9
    isplitl [H10]; · iexact H10
    isplitl [H11]; · iexact H11
    iexact H13
  · iintro ⟨Hl, Hr, H7, H9, H10, H11, H13⟩
    isplitl [Hl Hr]
    · iapply (pointsTo_share (PosShare.mem_left_op_right fullShare)).2
      isplitl [Hl] <;> iassumption
    isplitl [H7]; · iexact H7
    isplitl [H9]; · iexact H9
    isplitl [H10]; · iexact H10
    isplitl [H11]; · iexact H11
    iexact H13

/-! ## The region's ends -/

/-- The buffers when the region is left, read at a TensorCore reference. -/
abbrev Vo (c : Dev nD) (b : Ref sig .tc) : Buf (Elt F) ((c : Thread nD τ).loc b) := Vout m c (Proc.devRef .tc b)

/-- What bypasses the region: every unscoped buffer that is no window's array. -/
abbrev Zk (c : Dev nD) : sProp 𝕄 := Pipeline.unscopedRest spec0 c (V m c)

/-- Every array after the region is what `Vout` says: an input array is never written back, and the output array is
    where `Vout` differs from the entry. -/
theorem vo_ne (c : Dev nD) (b : Ref sig .tc) (h : b ≠ main_v13) : Vo m c b = V m c b :=
  Function.update_of_ne (StableHlo.devRef_ne_of_ne h) _ _

theorem arrAt_out (c : Dev nD) : ∀ w : Fin cfg0.W, (dats m 0 c).arrAt w cfg0.N = Vo m c (Pipeline.arrRef spec0 w)
  | ⟨0, _⟩ => ((dats m 0 c).arrAt_in 0 rfl _).trans (vo_ne m c main_v12 (by decide)).symm
  | ⟨1, _⟩ => ((dats m 0 c).arrAt_in 1 rfl _).trans (vo_ne m c main_v12 (by decide)).symm
  | ⟨2, _⟩ => ((dats m 0 c).arrAt_in 2 rfl _).trans (vo_ne m c main_v7 (by decide)).symm
  | ⟨3, _⟩ => ((dats m 0 c).arrAt_in 3 rfl _).trans (vo_ne m c main_v9 (by decide)).symm
  | ⟨4, _⟩ => ((dats m 0 c).arrAt_in 4 rfl _).trans (vo_ne m c main_v10 (by decide)).symm
  | ⟨5, _⟩ => ((dats m 0 c).arrAt_in 5 rfl _).trans (vo_ne m c main_v11 (by decide)).symm
  | ⟨6, _⟩ => (Function.update_self (Proc.devRef (τ := τ) .tc main_v13) ((dats m 0 c).arrAt 6 cfg0.N) (Vh m c)).symm

/-- The buffers that bypass the region are the same at entry and at exit: the output array is not among them. -/
theorem rest_out (c : Dev nD) :
    (Pipeline.unscopedRest (Ix := Unit) (Name := ℕ) (U := UR sig nD τ) (Lvl := ℕ) spec0 c (Vo m c) : sProp 𝕄) = Zk m c := by
  unfold Pipeline.unscopedRest
  exact bigSep_congr fun b hb => by
    have hne : b ≠ main_v13 := fun h =>
      (Finset.mem_sdiff.mp hb).2 (Finset.mem_image.mpr ⟨6, Finset.mem_univ _, h.symm ▸ rfl⟩)
    rw [vo_ne m c b hne]

/-- ENTRY: the unscoped buffers as the twenty operations left them are the windows' arrays, dealt to the pipeline,
    and the rest, which bypasses the region. -/
theorem hentry_k (c : Dev nD) :
    iprop((StableHlo.held (c : Thread nD τ) (Pipeline.ucRefs τ sig) (Vh m c) ∗ Rk c)
        ∗ Pipeline.ownSems0 (Ix := Unit) (Name := ℕ) (U := UR sig nD τ) (Lvl := ℕ) (Val := Elt F) (τ := τ) (fun k : PEmpty => k.elim) c
        ∗ (levAts Lk lvk : sProp 𝕄))
      ⊢ |={Set.univ}=> iprop((dats m 0 c).arrays ((dats m 0 c).arrAt · 0)
          ∗ Pipeline.prefHeld (pcfgs (F := F) 0).pre c (fun _ => fullShare) (admk (F := F) 0).1
          ∗ (dats m 0 c).owesAt () 0 ∗ (BI.emp : sProp 𝕄) ∗ Zk m c) := by
  rw [show StableHlo.held (c : Thread nD τ) (Pipeline.ucRefs τ sig) (Vh m c) = unscopedBufs c (V m c)
      from (Pipeline.unscopedBufs_held (Ix := Unit) (Name := ℕ) (U := UR sig nD τ) (Lvl := ℕ) c (Vh m c)).symm,
    Pipeline.unscopedBufs_split₀ cfgs 0 winFacts₀0.arr_unscoped c (V m c)]
  iintro ⟨⟨⟨Ha, Hz⟩, HO⟩, -, -⟩
  ihave Ha := (arrays_iff m c (V m c)).1 $$ Ha
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hz

/-- EXIT: the arrays as the region left them — the two halves of the shared array joined — and the rest that bypassed
    it are the unscoped buffers at `Vout`. -/
theorem hexit_k (c : Dev nD) :
    iprop((dats m 0 c).arrays ((dats m 0 c).arrAt · cfg0.N) ∗ (dats m 0 c).owesAt () (Fin.last cfg0.N) ∗ (BI.emp : sProp 𝕄) ∗ Zk m c)
      ⊢ |={Set.univ}=> iprop(StableHlo.held (c : Thread nD τ) (Pipeline.ucRefs τ sig) (Vout m c) ∗ Rk c) := by
  rw [show StableHlo.held (c : Thread nD τ) (Pipeline.ucRefs τ sig) (Vout m c) = unscopedBufs c (Vo m c)
      from (Pipeline.unscopedBufs_held (Ix := Unit) (Name := ℕ) (U := UR sig nD τ) (Lvl := ℕ) c (Vout m c)).symm,
    Pipeline.unscopedBufs_split₀ cfgs 0 winFacts₀0.arr_unscoped c (Vo m c), rest_out,
    show ((dats m 0 c).arrAt · cfg0.N) = fun w => Vo m c (Pipeline.arrRef spec0 w) from funext (arrAt_out m c)]
  iintro ⟨Ha, HO, -, Hz⟩
  ihave Ha := (arrays_iff m c (Vo m c)).2 $$ Ha
  imodintro
  isplitr [HO]
  · isplitl [Ha] <;> iassumption
  · unfold Pipeline.Dat.owesAt Pipeline.owesWithin
    icases HO with ⟨%W, -, HO⟩; iexists W; iexact HO

/-- The invariant before the first point: the scratch accumulator at anything. -/
theorem hin_k (c : Dev nD) :
    iprop((BI.emp : sProp 𝕄) ∗ Pipeline.prefHeld (pcfgs (F := F) 0).pre c (fun _ => fullShare) (admk (F := F) 0).1
        ∗ Pipeline.scopedRest (Ix := Unit) (Name := ℕ) (U := UR sig nD τ) (Lvl := ℕ) (Val := Elt F) spec0 c)
      ⊢ (dats m 0 c).Φ 0 := by
  rw [scopedRest0_eq, show (dats m 0 c).Φ 0 = Φc m c 0 from rfl]; unfold Φc
  simp only [owns_whole]
  iintro ⟨-, -, ⟨%f, Hs⟩⟩
  iexists f
  isplitr; · ipureintro; exact fun h => absurd rfl h
  iexact Hs

/-- The invariant after the last point gives the scratch accumulator back. -/
theorem hout_k (c : Dev nD) :
    (dats m 0 c).Φ (Fin.last cfg0.N)
      ⊢ iprop((BI.emp : sProp 𝕄)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [Pipeline.ownSems0_none, scopedRest0_eq, show (dats m 0 c).Φ (Fin.last cfg0.N) = Φc m c (Fin.last cfg0.N) from rfl]; unfold Φc
  simp only [owns_whole]
  iintro ⟨%d, -, H⟩
  isplitr; · iempintro
  isplitr; · iempintro
  iexists d
  iexact H

/-! ## The region and the run -/

set_option backward.isDefEq.respectTransparency.types false in
/-- THE REGION: entered from what the twenty operations left — the windows' arrays into the pipeline (the rounded
    rows in two halves), every other unscoped buffer bypassing, the scratch accumulator into the invariant —, left
    with the output array at what the write-backs made of it. -/
def reg0 (hbody : ∀ c, BodyObligation (dats m 0 c) (defs₀ (F := F)) Variants.none () Set.univ) :
    Pipeline.RegionSeg (pcfgs (F := F)) admk (dats m) () defs₀ 𝒱k Lk lvk 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ Lk lvk 0 fun _ _ => rfl
  pre c := iprop(StableHlo.held (c : Thread nD τ) (Pipeline.ucRefs τ sig) (Vh m c) ∗ Rk c)
  post c := iprop(StableHlo.held (c : Thread nD τ) (Pipeline.ucRefs τ sig) (Vout m c) ∗ Rk c)
  X c := iprop(emp)
  Y c := iprop(emp)
  Z c := Zk m c
  hentry c := hentry_k m c
  hin c := hin_k m c
  hout c := hout_k m c
  hexit c := hexit_k m c

/-- @main as the list of the four. -/
abbrev segsk (hbody : ∀ c, BodyObligation (dats m 0 c) (defs₀ (F := F)) Variants.none () Set.univ) :
    List (Pipeline.Seg (pcfgs (F := F)) admk (dats m) () defs₀ 𝒱k Lk lvk) :=
  [.host (seg0 m), .host (seg01 m), .region (reg0 m hbody), .host (seg1 m)]

/-! ## The arguments are never written -/

theorem not_written0 (b : Ref sig .tc)
    (hb : b ≠ main_call0_v0 ∧ b ≠ main_call0_cst ∧ b ≠ main_call0_v1 ∧ b ≠ main_call0_v2 ∧ b ≠ main_v0) :
    ∀ op ∈ (hostOps0 : List (HloOp τ sig (Elt F))), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

theorem not_written01 (b : Ref sig .tc)
    (hb : b ≠ main_cst ∧ b ≠ main_v1 ∧ b ≠ main_v2 ∧ b ≠ main_v3 ∧ b ≠ main_v4 ∧ b ≠ main_v5 ∧ b ≠ main_cst_0 ∧ b ≠ main_v6
      ∧ b ≠ main_v7 ∧ b ≠ main_cst_1 ∧ b ≠ main_v8 ∧ b ≠ main_v9 ∧ b ≠ main_v10 ∧ b ≠ main_v11 ∧ b ≠ main_v12) :
    ∀ op ∈ (hostOps0_1 : List (HloOp τ sig (Elt F))), Proc.devRef .tc b ∉ op.writes := by
  obtain ⟨h0, h1, h2, h3, h4, h5, h6, h7, h8, h9, h10, h11, h12, h13, h14⟩ := hb
  intro op hop
  simp only [List.mem_cons, List.mem_nil_iff, or_false] at hop
  rcases hop with rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

theorem not_written1 (b : Ref sig .tc) (hb : b ≠ main_v14 ∧ b ≠ main_cst_2 ∧ b ≠ main_v15) :
    ∀ op ∈ (hostOps1 : List (HloOp τ sig (Elt F))), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, StableHlo.binary_writes, StableHlo.nullary_writes, Finset.mem_singleton] <;>
    exact StableHlo.devRef_ne_of_ne ‹_›

/-- A buffer no operation writes and that is not the output array holds at the end what it held at launch. -/
theorem vend_of_not_written (c : Dev nD) (b : Ref sig .tc)
    (h0 : b ≠ main_call0_v0 ∧ b ≠ main_call0_cst ∧ b ≠ main_call0_v1 ∧ b ≠ main_call0_v2 ∧ b ≠ main_v0)
    (h01 : b ≠ main_cst ∧ b ≠ main_v1 ∧ b ≠ main_v2 ∧ b ≠ main_v3 ∧ b ≠ main_v4 ∧ b ≠ main_v5 ∧ b ≠ main_cst_0 ∧ b ≠ main_v6
      ∧ b ≠ main_v7 ∧ b ≠ main_cst_1 ∧ b ≠ main_v8 ∧ b ≠ main_v9 ∧ b ≠ main_v10 ∧ b ≠ main_v11 ∧ b ≠ main_v12)
    (h13 : b ≠ main_v13) (h1 : b ≠ main_v14 ∧ b ≠ main_cst_2 ∧ b ≠ main_v15) :
    Vend m c (Proc.devRef .tc b) = m ((c.tc : Thread nD τ).loc b) :=
  (StableHlo.after_of_forall_not_mem (b := Proc.devRef .tc b) hostOps1 (Vout m c) (not_written1 b h1)).trans <|
    (vo_ne m c b h13).trans <|
      (StableHlo.after_of_forall_not_mem (b := Proc.devRef .tc b) hostOps0_1 (Vn m c) (not_written01 b h01)).trans <|
        StableHlo.after_of_forall_not_mem (b := Proc.devRef .tc b) hostOps0 (V₀ m c) (not_written0 b h0)

theorem vend_arg0 (c : Dev nD) : Vend m c (Proc.devRef .tc main_arg0) = m ((c.tc : Thread nD τ).loc main_arg0) :=
  vend_of_not_written m c main_arg0 (by decide) (by decide) (by decide) (by decide)
theorem vend_arg1 (c : Dev nD) : Vend m c (Proc.devRef .tc main_arg1) = m ((c.tc : Thread nD τ).loc main_arg1) :=
  vend_of_not_written m c main_arg1 (by decide) (by decide) (by decide) (by decide)

/-- A TensorCore reference that is not scoped is among the buffers the host operations run within. -/
theorem mem_ucRefs (b : Ref sig .tc) (h : b.isScoped = false) : Proc.devRef .tc b ∈ Pipeline.ucRefs τ sig :=
  Finset.mem_filter.mpr ⟨StableHlo.devRef_mem_tcRefs b, fun h' => Bool.false_ne_true (h.symm.trans h')⟩

set_option backward.isDefEq.respectTransparency.types false in
/-- At the compiled mesh, at any float instance, from any memory with zero counters: every weakly fair execution of
    @main on the TensorCores terminates, and every final memory holds at the result's buffer what the three closing
    operations make of the output array as the region left it, and both arguments as launched. -/
theorem run_main (hbody : ∀ c, BodyObligation (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v15) = Vend m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admk (dats m) () cellOf_inj EPk defs₀ 𝒱k Lk lvk m ρ main (segsk m hbody)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀k)
    (hu₀ := by
      unfold u₀k
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rk c))
    (Tₙ := fun c => StableHlo.held (c : Thread nD τ) (Pipeline.ucRefs τ sig) (Vend m c))
    (hch := ⟨fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v15) = Vend m c (Proc.devRef .tc main_v15)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c.tc : Thread nD τ).1, b)) (fun b => Vend m c b) s') $$ [Hh HSI]
      · isplitl [Hh] <;> iassumption
      icases Hr with ⟨%hr, HSI⟩
      imodintro
      isplitr
      · ipureintro
        exact ⟨hr _ (mem_ucRefs main_v15 rfl), (hr _ (mem_ucRefs main_arg0 rfl)).trans (vend_arg0 m c),
          (hr _ (mem_ucRefs main_arg1 rfl)).trans (vend_arg1 m c)⟩
      iexact HSI)
    (hQ := fun _ h => h)

end Cert.KernelIdeal.Hand

end
-- ==== Proof.KI.Index.lean ====
/-
  Where a block entry sits in the whole matrix. Grid point `t` of the 8 × 8 grid is block row `t / 8` and block
  column `t % 8`; entry `(a, b)` of its 512 × 512 block is entry `(512 (t / 8) + a, 512 (t % 8) + b)` of the
  4096 × 4096 matrix of pairwise squared distances.
-/
import proofs.«143332_j841813590238_1_alg».proof.Proof.KI.Data
import proofs.«143332_j841813590238_1_alg».proof.Proof.Gen.ReferenceIdeal.Read
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

/-- The row and the column, in the whole 4096 × 4096 matrix, of entry `(a, b)` of the block of grid point `t`:
    block row `t / 8`, block column `t % 8`. -/
abbrev gRow (t : Fin 64) (a : Fin 512) : Fin 4096 := ⟨512 * (t.val / 8) + a.val, by have := t.isLt; have := a.isLt; omega⟩
abbrev gCol (t : Fin 64) (b : Fin 512) : Fin 4096 := ⟨512 * (t.val % 8) + b.val, by have := t.isLt; have := b.isLt; omega⟩
/-- A grid point as a number below 64. -/
abbrev pt64 (t : Fin cfg0.N) : Fin 64 := ⟨t.val, by have := t.isLt; have h : cfg0.N = 64 := N_0; omega⟩

/-- The argument array of embeddings on core `c`, as the reference's stages take it. -/
abbrev xArg (m : (ℓ : Loc nD τ sig) → Buf (Elt Ideal) ℓ) (c : Dev nD) :
    (⟨Cert.ReferenceIdeal.S4096x1024, .f32⟩ : BufTy).Contents (Elt Ideal) := m ((c.tc : Thread nD τ).loc main_arg0)

end Cert.KernelIdeal.Hand

end
-- ==== Proof.KI.Reindex.lean ====
/-
  Summing over the 8 × 8 grid of 512 × 512 blocks is summing over the whole 4096 × 4096 matrix.

  A number below `m * n` is `n * p + q` for exactly one `p < m` and one `q < n`; so a sum over the numbers below
  `m * n` is a double sum over `p` and `q`. Used once for the grid points (`64 = 8 * 8`) and once each for the rows
  and the columns (`4096 = 8 * 512`), this turns both sides into the same fourfold sum, up to the order of the two
  middle summations. Only commutativity and associativity of the addition are used.
-/
import proofs.«143332_j841813590238_1_alg».proof.Proof.KI.Index
import Mathlib.Algebra.BigOperators.Fin
import Mathlib.Algebra.BigOperators.Group.Finset.Sigma
import Mathlib.Data.Fintype.BigOperators
import Mathlib.Logic.Equiv.Fin.Basic

noncomputable section

namespace Cert.KernelIdeal.Hand

open Idealize.ShloMosaic

/-- `n * p + q < N` when `p < m`, `q < n` and `m * n = N`. -/
theorem mul_add_lt_of_mul_eq {m n N : ℕ} (h : m * n = N) (p : Fin m) (q : Fin n) : n * p.val + q.val < N := by
  have hp : p.val + 1 ≤ m := p.isLt
  have hq : q.val < n := q.isLt
  calc n * p.val + q.val < n * p.val + n := Nat.add_lt_add_left hq _
    _ = n * (p.val + 1) := (Nat.mul_succ n p.val).symm
    _ ≤ n * m := Nat.mul_le_mul_left n hp
    _ = N := by rw [Nat.mul_comm, h]

/-- A sum over the numbers below `N = m * n` is the double sum over the quotient `p < m` and the remainder `q < n`
    of the division by `n`. -/
theorem sum_fin_eq_sum_mul_add {M : Type*} [AddCommMonoid M] {m n N : ℕ} (h : m * n = N) (g : Fin N → M) :
    ∑ i : Fin N, g i = ∑ p : Fin m, ∑ q : Fin n, g ⟨n * p.val + q.val, mul_add_lt_of_mul_eq h p q⟩ := by
  subst h
  rw [← Equiv.sum_comp finProdFinEquiv g, Fintype.sum_prod_type]
  refine Finset.sum_congr rfl fun p _ => Finset.sum_congr rfl fun q _ => ?_
  congr 1
  apply Fin.ext
  simp only [finProdFinEquiv_apply_val]
  exact Nat.add_comm _ _

/-- The row of entry `(a, ·)` of the block at grid point `8 p + q` is row `512 p + a` of the whole matrix. -/
theorem gRow_mul_add (p q : Fin 8) (a : Fin 512) (h : 8 * p.val + q.val < 64) (h' : 512 * p.val + a.val < 4096) :
    gRow ⟨8 * p.val + q.val, h⟩ a = ⟨512 * p.val + a.val, h'⟩ := by
  apply Fin.ext
  show 512 * ((8 * p.val + q.val) / 8) + a.val = 512 * p.val + a.val
  have := q.isLt
  omega

/-- The column of entry `(·, b)` of the block at grid point `8 p + q` is column `512 q + b` of the whole matrix. -/
theorem gCol_mul_add (p q : Fin 8) (b : Fin 512) (h : 8 * p.val + q.val < 64) (h' : 512 * q.val + b.val < 4096) :
    gCol ⟨8 * p.val + q.val, h⟩ b = ⟨512 * q.val + b.val, h'⟩ := by
  apply Fin.ext
  show 512 * ((8 * p.val + q.val) % 8) + b.val = 512 * q.val + b.val
  have := q.isLt
  omega

/-- The sum over the 64 blocks of the sums over each block's 512 × 512 entries is the sum over all the
    4096 × 4096 entries. -/
theorem blocks_reindex {M : Type*} [AddCommMonoid M] (f : Fin 4096 → Fin 4096 → M) :
    ∑ t : Fin 64, ∑ a : Fin 512, ∑ b : Fin 512, f (gRow t a) (gCol t b) = ∑ i : Fin 4096, ∑ j : Fin 4096, f i j := by
  have h64 : 8 * 8 = 64 := by norm_num
  have h4096 : 8 * 512 = 4096 := by norm_num
  -- the left side, as a sum over block row `p`, block column `q`, and the entry `(a, b)` of the block
  rw [sum_fin_eq_sum_mul_add h64 (fun t => ∑ a : Fin 512, ∑ b : Fin 512, f (gRow t a) (gCol t b))]
  -- the right side, as a sum over `p`, `a` (the row `512 p + a`) and `q`, `b` (the column `512 q + b`)
  rw [sum_fin_eq_sum_mul_add h4096 (fun i => ∑ j : Fin 4096, f i j)]
  refine Finset.sum_congr rfl fun p _ => ?_
  rw [Finset.sum_comm]
  refine Finset.sum_congr rfl fun a _ => ?_
  rw [sum_fin_eq_sum_mul_add h4096 (fun j => f ⟨512 * p.val + a.val, mul_add_lt_of_mul_eq h4096 p a⟩ j)]
  refine Finset.sum_congr rfl fun q _ => Finset.sum_congr rfl fun b _ => ?_
  rw [gRow_mul_add p q a _ (mul_add_lt_of_mul_eq h4096 p a), gCol_mul_add p q b _ (mul_add_lt_of_mul_eq h4096 q b)]

end Cert.KernelIdeal.Hand

end
-- ==== Proof.KI.PointSum.lean ====
/-
  What one grid point adds to the accumulator, and the reference's mask, each read at an index on the extended reals.

  At grid point `t` (block row `t / 8`, block column `t % 8`) the body compares, entry by entry of the 512 × 512
  block, the row counter `512 (t / 8) + a` with the column counter `512 (t % 8) + b` — 32-bit words, and nothing wraps
  since both stay below 4096 —, keeps the block's entry where they differ and puts zero where they agree, sums each row,
  sums the 512 row sums, and adds the total to what the accumulator held. So the accumulator's one entry grows by
  `∑ a, ∑ b, [gRow t a ≠ gCol t b] · blk (a, b)`, the block's sum off the whole matrix's diagonal. The first point
  stores the zero word, which is the extended real zero.

  The reference multiplies the 4096 × 4096 matrix of clamped squared distances by `1 − eye`, where `eye (i, j)` is the
  bit `i = j` converted to a float: on the diagonal the factor is `1 − 1 = 0` and the product is zero (for every
  extended real, the infinities included), off it the factor is `1 − 0 = 1` and the product is the distance itself.
-/
import proofs.«143332_j841813590238_1_alg».proof.Proof.KI.Index
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
noncomputable section
namespace Cert.KernelIdeal.Hand
open Cert.KernelIdeal Cert.KernelIdeal.Gen Idealize.ShloMosaic Idealize.ShloMosaic.TcCoe Idealize.SL.Sem Idealize.ShloMosaic.ValueIdx
open scoped BigOperators

/-! ## The steps: the grid's coordinates, the two counters as words, the mask bit, the two lane sums -/

namespace PointSum

/-- The grid is walked row-major: point `t` of the 8 × 8 grid is block row `t / 8`, block column `t % 8`. -/
theorem coords_val : ∀ t : Fin grid0.N, ((grid0.coords t) 0).val = t.val / 8 ∧ ((grid0.coords t) 1).val = t.val % 8 := by
  decide +kernel

/-- The row counter at row `a` of the block: `512 (t / 8) + a`, as a word (nothing wraps: it is below 4096). -/
theorem word_row (t : Fin cfg0.N) (a : Fin 512) :
    IntOp.addi (rowBase t) (BitVec.ofNat 32 a.val) = BitVec.ofNat 32 (512 * (t.val / 8) + a.val) := by
  obtain ⟨h0, h1⟩ := coords_val t
  have ht : t.val < 64 := (pt64 t).isLt
  apply BitVec.eq_of_toNat_eq
  simp only [IntOp.addi, rowBase, Scalar.muli, IntOp.muli, BitVec.toNat_add, BitVec.toNat_mul, BitVec.toNat_ofNat, h0]
  omega

/-- The column counter at column `b` of the block: `512 (t % 8) + b`, as a word. -/
theorem word_col (t : Fin cfg0.N) (b : Fin 512) :
    IntOp.addi (Scalar.muli (colWord t) 512#32) (BitVec.ofNat 32 b.val) = BitVec.ofNat 32 (512 * (t.val % 8) + b.val) := by
  obtain ⟨h0, h1⟩ := coords_val t
  have ht : t.val < 64 := (pt64 t).isLt
  apply BitVec.eq_of_toNat_eq
  simp only [IntOp.addi, colWord, Scalar.muli, IntOp.muli, BitVec.toNat_add, BitVec.toNat_mul, BitVec.toNat_ofNat, h1]
  omega

/-- The mask bit at entry `(a, b)` of the block of point `t`: set exactly off the whole matrix's diagonal. -/
theorem mask_apply (t : Fin cfg0.N) (a b : Fin 512) :
    IntOp.cmpi .ne (IntOp.addi (rowBase t) (BitVec.ofNat 32 a.val)) (IntOp.addi (Scalar.muli (colWord t) 512#32) (BitVec.ofNat 32 b.val))
      = if gRow (pt64 t) a = gCol (pt64 t) b then 0#1 else 1#1 := by
  rw [word_row, word_col]
  have ht : t.val < 64 := (pt64 t).isLt
  unfold IntOp.cmpi
  by_cases h : gRow (pt64 t) a = gCol (pt64 t) b
  · rw [if_pos h]
    have e : 512 * (t.val / 8) + a.val = 512 * (t.val % 8) + b.val := congrArg Fin.val h
    simp [e]
  · rw [if_neg h]
    have ne : BitVec.ofNat 32 (512 * (t.val / 8) + a.val) ≠ BitVec.ofNat 32 (512 * (t.val % 8) + b.val) := by
      intro e
      apply h
      apply Fin.ext
      have := congrArg BitVec.toNat e
      simp only [BitVec.toNat_ofNat] at this
      show 512 * (t.val / 8) + a.val = 512 * (t.val % 8) + b.val
      omega
    have hb : (BitVec.ofNat 32 (512 * (t.val / 8) + a.val) != BitVec.ofNat 32 (512 * (t.val % 8) + b.val)) = true := bne_iff_ne.mpr ne
    show BitVec.ofBool (BitVec.ofNat 32 (512 * (t.val / 8) + a.val) != BitVec.ofNat 32 (512 * (t.val % 8) + b.val)) = 1#1
    rw [hb]
    rfl

/-- A 512 × 512 block summed along each row, the 512 row sums then summed: the double sum of its entries. -/
theorem total_apply (v : FVec Ideal S512x512 .f32) (acc1 acc2 : BitVec FTy.f32.bits)
    (h1 : S512x512.Reduces [1] S512) (hφ1 : FKind.Formats .f32) (hacc1 : acc1 = FKind.add.neutral .f32 hφ1)
    (c1 : S512.ShapeCasts S512x1)
    (h2 : S512x1.Reduces [0] S1) (hφ2 : FKind.Formats .f32) (hacc2 : acc2 = FKind.add.neutral .f32 hφ2)
    (c2 : S1.ShapeCasts S1x1) :
    shapeCast S1x1 (multiReduction .add [0] S1 (shapeCast S512x1 (multiReduction .add [1] S512 v acc1 h1 hφ1 hacc1) c1) acc2 h2 hφ2 hacc2) c2
        (ix2 (0 : Fin 1) (0 : Fin 1))
      = ∑ a : Fin 512, ∑ b : Fin 512, v (ix2 a b) := by
  refine (shapeCast_apply _ c2 _ (ix1 (0 : Fin 1)) (by rw [Shape.rowMajor_val_one, Shape.rowMajor_val_two]; rfl)).trans ?_
  refine (Ideal.multiReduction_add_single _ _ h2 hφ2 hacc2 _).trans ?_
  refine Finset.sum_congr rfl fun a _ => ?_
  refine (shapeCast_apply _ c1 _ (ix1 a) ?_).trans ?_
  · rw [Shape.rowMajor_val_one, Shape.rowMajor_val_two]
    show a.val = a.val * 1 + 0
    omega
  refine (Ideal.multiReduction_add_single _ _ h1 hφ1 hacc1 _).trans ?_
  refine Finset.sum_congr rfl fun b _ => ?_
  exact congrArg v (funext fun c => match c with | ⟨0, _⟩ => rfl | ⟨1, _⟩ => rfl)

/-- The masked block at entry `(a, b)`: zero on the whole matrix's diagonal, the block's entry off it. -/
theorem masked_apply (t : Fin cfg0.N) (blk : FVec Ideal S512x512 .f32) (a b : Fin 512) :
    select (cmpi .ne (addi (broadcast S512x512 (rowBase t)) rowIota)
        (addi (broadcast S512x512 (Scalar.muli (colWord t) 512#32)) (iota .tc S512x512 32 [1] iota_S512x512_d1_w32)))
      blk (broadcast S512x512 (Scalar.ofBits (F := Ideal) .f32 0x00000000#32)) (ix2 a b)
      = if gRow (pt64 t) a = gCol (pt64 t) b then (0 : EReal) else blk (ix2 a b) := by
  have hr : rowIota (ix2 a b) = BitVec.ofNat 32 a.val := iota_single_apply _ _ _ _ _ _
  have hc : iota .tc S512x512 32 [1] iota_S512x512_d1_w32 (ix2 a b) = BitVec.ofNat 32 b.val := iota_single_apply _ _ _ _ _ _
  show Scalar.select (IntOp.cmpi .ne (IntOp.addi (rowBase t) (rowIota (ix2 a b)))
      (IntOp.addi (Scalar.muli (colWord t) 512#32) (iota .tc S512x512 32 [1] iota_S512x512_d1_w32 (ix2 a b))))
      (blk (ix2 a b)) (Ideal.ofBits .f32 0x00000000#32) = _
  rw [hr, hc, mask_apply, Ideal.ofBits_zero_f32]
  by_cases h : gRow (pt64 t) a = gCol (pt64 t) b
  · rw [if_pos h, if_pos h, select_zero]
  · rw [if_neg h, if_neg h, select_one]

/-- The reference's diagonal bit at `(i, j)`: set exactly where `i = j`. -/
theorem eye_apply (i j : Fin 4096) :
    IntOp.cmpi .eq (IntOp.addi (BitVec.ofNat 32 i.val) 0#32) (BitVec.ofNat 32 j.val) = if i = j then 1#1 else 0#1 := by
  unfold IntOp.cmpi IntOp.addi
  rw [BitVec.add_zero]
  by_cases h : i = j
  · rw [if_pos h, h]
    simp
  · rw [if_neg h]
    have ne : BitVec.ofNat 32 i.val ≠ BitVec.ofNat 32 j.val := by
      intro e
      apply h
      apply Fin.ext
      have := congrArg BitVec.toNat e
      simp only [BitVec.toNat_ofNat] at this
      have := i.isLt
      have := j.isLt
      omega
    have hb : (BitVec.ofNat 32 i.val == BitVec.ofNat 32 j.val) = false := beq_eq_false_iff_ne.mpr ne
    show BitVec.ofBool (BitVec.ofNat 32 i.val == BitVec.ofNat 32 j.val) = 0#1
    rw [hb]
    rfl

/-- One less one is zero, on the extended reals. -/
theorem one_sub_one : (1 : EReal) - 1 = 0 := by
  rw [← EReal.coe_one, ← EReal.coe_sub, sub_self, EReal.coe_zero]

end PointSum

/-! ## The three readings -/

/-- The zero the first point stores. -/
theorem pay2_apply : k0_pay2 (F := Ideal) (ix2 (0 : Fin 1) (0 : Fin 1)) = 0 := by
  unfold k0_pay2
  rw [shapeCast_self]
  show Ideal.ofBits .f32 0x00000000#32 = 0
  exact Ideal.ofBits_zero_f32

/-- What point `t` leaves in the accumulator: what it held, plus the block's sum off the whole matrix's diagonal. -/
theorem pay1_apply (t : Fin cfg0.N) (blk : FVec Ideal S512x512 .f32) (prev : Vec Ideal S1x1 .f32) :
    k0_pay1 (F := Ideal) (colWord t) blk (rowBase t) rowIota prev (ix2 (0 : Fin 1) (0 : Fin 1))
      = prev (ix2 (0 : Fin 1) (0 : Fin 1))
        + ∑ a : Fin 512, ∑ b : Fin 512, (if gRow (pt64 t) a = gCol (pt64 t) b then (0 : EReal) else blk (ix2 a b)) := by
  unfold k0_pay1
  rw [shapeCast_self, addf_apply]
  congr 1
  refine (PointSum.total_apply _ _ _ _ _ _ _ _ _ _ _).trans ?_
  exact Finset.sum_congr rfl fun a _ => Finset.sum_congr rfl fun b _ => PointSum.masked_apply t blk a b

/-- The reference's masked matrix at `(i, j)`: the clamped squared distance times `1 − [i = j]`, so zero on the
    diagonal and the distance itself off it (a product with zero is zero for every extended real). -/
theorem v38_apply (x : (⟨Cert.ReferenceIdeal.S4096x1024, .f32⟩ : BufTy).Contents (Elt Ideal)) (i j : Fin 4096) :
    Cert.ReferenceIdeal.Read.val_main_v38 (F := Ideal) x (ix2 i j)
      = if i = j then (0 : EReal) else Cert.ReferenceIdeal.Read.val_main_v29 (F := Ideal) x (ix2 i j) := by
  rw [Cert.ReferenceIdeal.Read.val_main_v38_apply, Cert.ReferenceIdeal.Read.val_main_v37_apply,
    Cert.ReferenceIdeal.Read.val_main_v36_apply, Cert.ReferenceIdeal.Read.val_main_cst_6_apply,
    Cert.ReferenceIdeal.Read.val_main_v35_apply, Cert.ReferenceIdeal.Read.val_main_v34_apply,
    Cert.ReferenceIdeal.Read.val_main_v33_apply, Cert.ReferenceIdeal.Read.val_main_v30_apply,
    Cert.ReferenceIdeal.Read.val_main_v32_apply, Cert.ReferenceIdeal.Read.val_main_c_apply,
    Cert.ReferenceIdeal.Read.val_main_v31_apply]
  show Cert.ReferenceIdeal.Read.val_main_v29 (F := Ideal) x (ix2 i j)
      * (Ideal.ofBits .f32 0x3F800000#32
          - (((IntOp.cmpi .eq (IntOp.addi (BitVec.ofNat 32 i.val) 0#32) (BitVec.ofNat 32 j.val)).toNat : ℝ) : EReal)) = _
  rw [PointSum.eye_apply, Ideal.ofBits_one_f32]
  by_cases h : i = j
  · rw [if_pos h, if_pos h]
    have e1 : (((1#1 : BitVec 1).toNat : ℝ) : EReal) = 1 := by simp
    rw [e1, PointSum.one_sub_one, mul_zero]
  · rw [if_neg h, if_neg h]
    have e0 : (((0#1 : BitVec 1).toNat : ℝ) : EReal) = 0 := by simp
    rw [e0, sub_zero, mul_one]

end Cert.KernelIdeal.Hand

end
-- ==== Proof.KI.BlockValue.lean ====
/-
  One entry of a grid point's block is one entry of the whole matrix.

  At grid point `t` (block row `t / 8`, block column `t % 8`) the body forms a 512 × 512 block from six blocks it reads:
  rows `512 (t / 8) …` and rows `512 (t % 8) …` of the normalised embeddings `e`, the same row ranges of the squared
  norms `r = Σ_k e²` and of the coordinate sums `s = Σ_k e` (the first as a column, the second, transposed, as a row).
  Entry `(a, b)` of the block is

      max (r_i + r_j − 2 ⟨e_i, e_j⟩ + 2e-6 (s_i − s_j) + 1.024e-9, 0),   i = 512 (t / 8) + a,  j = 512 (t % 8) + b,

  which is entry `(i, j)` of the 4096 × 4096 matrix the reference forms in one piece. The proof reads both sides down
  to that expression over the same three functions of the argument — the normalised rows, their squared norms, their
  sums — and never opens those: the host operations that produce them are the same on both sides.

  The steps: where each window's block sits in its array (the index maps, decided once over the grid); what the six
  arrays hold when the region is entered, as the reference's own stages of the argument; the block product at an
  entry as a sum over the 1024 coordinates, the two broadcasts at an entry, and with them the body's arithmetic at an
  entry; the reference's matrix at an entry; the two meet.
-/
import proofs.«143332_j841813590238_1_alg».proof.Proof.KI.Index
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
noncomputable section
namespace Cert.KernelIdeal.Hand
open Cert.KernelIdeal Cert.KernelIdeal.Gen Idealize.ShloMosaic Idealize.ShloMosaic.TcCoe Idealize.SL.Sem Idealize.ShloMosaic.ValueIdx
open Cert.ReferenceIdeal.Read (val_main_v4 val_main_v8 val_main_v9 val_main_v10 val_main_v18 val_main_v29)

variable (m : (ℓ : Loc nD τ sig) → Buf (Elt Ideal) ℓ)

/-! ## Where a block sits in its array -/

/-- The six input windows' block indices over the grid: the row windows move with the block row `t / 8`, the column
    windows with the block column `t % 8`, and the other axis has one block. -/
theorem blockIndex : ∀ t : Fin cfg0.N,
    win0_0.index t (0 : Fin 2) = t.val / 8 ∧ win0_0.index t (1 : Fin 2) = 0
  ∧ win0_1.index t (0 : Fin 2) = t.val % 8 ∧ win0_1.index t (1 : Fin 2) = 0
  ∧ win0_2.index t (0 : Fin 2) = t.val / 8 ∧ win0_2.index t (1 : Fin 2) = 0
  ∧ win0_3.index t (0 : Fin 2) = t.val / 8 ∧ win0_3.index t (1 : Fin 2) = 0
  ∧ win0_4.index t (0 : Fin 2) = 0 ∧ win0_4.index t (1 : Fin 2) = t.val % 8
  ∧ win0_5.index t (0 : Fin 2) = 0 ∧ win0_5.index t (1 : Fin 2) = t.val % 8 :=
  (by decide +kernel : ∀ t : Fin grid0.N, _)

/-- Row `a` of the row block of the embeddings is row `512 (t / 8) + a` of the array. -/
theorem eRow_apply (c : Dev nD) (t : Fin cfg0.N) (a : Fin 512) (k : Fin 1024) :
    eRow (F := Ideal) m c t (ix2 a k) = (V m c main_v12 : S4096x1024.Idx → EReal) (ix2 (gRow (pt64 t) a) k) := by
  obtain ⟨e0, e1, -⟩ := blockIndex t
  unfold eRow iblk
  rw [View.read_apply]
  show V m c main_v12 _ = V m c main_v12 _
  congr 1
  funext d
  apply Fin.ext
  match d with
  | ⟨0, _⟩ => show win0_0.index t 0 * 512 + 1 * a.val = 512 * (t.val / 8) + a.val; rw [e0]; omega
  | ⟨1, _⟩ => show win0_0.index t 1 * 1024 + 1 * k.val = k.val; rw [e1]; omega

/-- Row `b` of the column block of the embeddings is row `512 (t % 8) + b` of the same array. -/
theorem eCol_apply (c : Dev nD) (t : Fin cfg0.N) (b : Fin 512) (k : Fin 1024) :
    eCol (F := Ideal) m c t (ix2 b k) = (V m c main_v12 : S4096x1024.Idx → EReal) (ix2 (gCol (pt64 t) b) k) := by
  obtain ⟨-, -, e0, e1, -⟩ := blockIndex t
  unfold eCol iblk
  rw [View.read_apply]
  show V m c main_v12 _ = V m c main_v12 _
  congr 1
  funext d
  apply Fin.ext
  match d with
  | ⟨0, _⟩ => show win0_1.index t 0 * 512 + 1 * b.val = 512 * (t.val % 8) + b.val; rw [e0]; omega
  | ⟨1, _⟩ => show win0_1.index t 1 * 1024 + 1 * k.val = k.val; rw [e1]; omega

/-- Entry `a` of the row block of the squared norms is entry `512 (t / 8) + a` of their column. -/
theorem nRow_apply (c : Dev nD) (t : Fin cfg0.N) (a : Fin 512) :
    nRow (F := Ideal) m c t (ix2 a (0 : Fin 1)) = (V m c main_v7 : S4096x1.Idx → EReal) (ix2 (gRow (pt64 t) a) (0 : Fin 1)) := by
  obtain ⟨-, -, -, -, e0, e1, -⟩ := blockIndex t
  unfold nRow iblk
  rw [View.read_apply]
  show V m c main_v7 _ = V m c main_v7 _
  congr 1
  funext d
  apply Fin.ext
  match d with
  | ⟨0, _⟩ => show win0_2.index t 0 * 512 + 1 * a.val = 512 * (t.val / 8) + a.val; rw [e0]; omega
  | ⟨1, _⟩ => show win0_2.index t 1 * 1 + 1 * 0 = 0; rw [e1]

/-- The same for the coordinate sums. -/
theorem sRow_apply (c : Dev nD) (t : Fin cfg0.N) (a : Fin 512) :
    sRow (F := Ideal) m c t (ix2 a (0 : Fin 1)) = (V m c main_v9 : S4096x1.Idx → EReal) (ix2 (gRow (pt64 t) a) (0 : Fin 1)) := by
  obtain ⟨-, -, -, -, -, -, e0, e1, -⟩ := blockIndex t
  unfold sRow iblk
  rw [View.read_apply]
  show V m c main_v9 _ = V m c main_v9 _
  congr 1
  funext d
  apply Fin.ext
  match d with
  | ⟨0, _⟩ => show win0_3.index t 0 * 512 + 1 * a.val = 512 * (t.val / 8) + a.val; rw [e0]; omega
  | ⟨1, _⟩ => show win0_3.index t 1 * 1 + 1 * 0 = 0; rw [e1]

/-- Entry `b` of the column block of the transposed squared norms is entry `512 (t % 8) + b` of their row. -/
theorem nCol_apply (c : Dev nD) (t : Fin cfg0.N) (b : Fin 512) :
    nCol (F := Ideal) m c t (ix2 (0 : Fin 1) b) = (V m c main_v10 : S1x4096.Idx → EReal) (ix2 (0 : Fin 1) (gCol (pt64 t) b)) := by
  obtain ⟨-, -, -, -, -, -, -, -, e0, e1, -⟩ := blockIndex t
  unfold nCol iblk
  rw [View.read_apply]
  show V m c main_v10 _ = V m c main_v10 _
  congr 1
  funext d
  apply Fin.ext
  match d with
  | ⟨0, _⟩ => show win0_4.index t 0 * 1 + 1 * 0 = 0; rw [e0]
  | ⟨1, _⟩ => show win0_4.index t 1 * 512 + 1 * b.val = 512 * (t.val % 8) + b.val; rw [e1]; omega

/-- The same for the transposed coordinate sums. -/
theorem sCol_apply (c : Dev nD) (t : Fin cfg0.N) (b : Fin 512) :
    sCol (F := Ideal) m c t (ix2 (0 : Fin 1) b) = (V m c main_v11 : S1x4096.Idx → EReal) (ix2 (0 : Fin 1) (gCol (pt64 t) b)) := by
  obtain ⟨-, -, -, -, -, -, -, -, -, -, e0, e1⟩ := blockIndex t
  unfold sCol iblk
  rw [View.read_apply]
  show V m c main_v11 _ = V m c main_v11 _
  congr 1
  funext d
  apply Fin.ext
  match d with
  | ⟨0, _⟩ => show win0_5.index t 0 * 1 + 1 * 0 = 0; rw [e0]
  | ⟨1, _⟩ => show win0_5.index t 1 * 512 + 1 * b.val = 512 * (t.val % 8) + b.val; rw [e1]; omega

/-! ## What the arrays hold when the region is entered

The normalised embeddings are the reference's own normalised embeddings of the argument (the narrowing to bf16 is the
identity on extended reals); the column of squared norms and the column of sums are the reference's columns; the two
rows are the transposes of those columns. Each side applies the same operations in the same order, so each equation
holds by unfolding the two lists of operations to the same term. -/

theorem V_v12 (c : Dev nD) : (V m c main_v12 : S4096x1024.Idx → EReal) = val_main_v4 (F := Ideal) (xArg m c) := by
  dsimp only [V, Vh, Vn, V₀]
  after_results
  rfl

theorem V_v7 (c : Dev nD) : (V m c main_v7 : S4096x1.Idx → EReal) = val_main_v10 (F := Ideal) (xArg m c) := by
  dsimp only [V, Vh, Vn, V₀]
  after_results
  rfl

theorem V_v9 (c : Dev nD) : (V m c main_v9 : S4096x1.Idx → EReal) = val_main_v18 (F := Ideal) (xArg m c) := by
  dsimp only [V, Vh, Vn, V₀]
  after_results
  rfl

theorem V_v10 (c : Dev nD) : (V m c main_v10 : S1x4096.Idx → EReal)
    = transpose S1x4096 [1, 0] (val_main_v10 (F := Ideal) (xArg m c)) Facts₀.transposes_S4096x1_S1x4096_1_0 := by
  dsimp only [V, Vh, Vn, V₀]
  after_results
  rfl

theorem V_v11 (c : Dev nD) : (V m c main_v11 : S1x4096.Idx → EReal)
    = transpose S1x4096 [1, 0] (val_main_v18 (F := Ideal) (xArg m c)) Facts₀.transposes_S4096x1_S1x4096_1_0 := by
  dsimp only [V, Vh, Vn, V₀]
  after_results
  rfl

/-- A column of per-row values at row `i` is the row's value, -/
theorem col_apply (x : (⟨Cert.ReferenceIdeal.S4096x1024, .f32⟩ : BufTy).Contents (Elt Ideal)) (i : Fin 4096) :
    val_main_v10 (F := Ideal) x (ix2 i (0 : Fin 1)) = val_main_v8 (F := Ideal) x (ix1 i)
    ∧ val_main_v18 (F := Ideal) x (ix2 i (0 : Fin 1)) = val_main_v9 (F := Ideal) x (ix1 i) := by
  constructor
  · rw [Cert.ReferenceIdeal.Read.val_main_v10_apply]
    exact congrArg (val_main_v8 (F := Ideal) x) (funext fun a => Fin.ext (by match a with | ⟨0, _⟩ => rfl))
  · rw [Cert.ReferenceIdeal.Read.val_main_v18_apply]
    exact congrArg (val_main_v9 (F := Ideal) x) (funext fun a => Fin.ext (by match a with | ⟨0, _⟩ => rfl))

/-- and the transposed column at column `j` is the column at row `j`. -/
theorem transposeCol_apply (y : (⟨S4096x1, .f32⟩ : BufTy).Contents (Elt Ideal)) (j : Fin 4096) :
    transpose S1x4096 [1, 0] y Facts₀.transposes_S4096x1_S1x4096_1_0 (ix2 (0 : Fin 1) j) = y (ix2 j (0 : Fin 1)) :=
  transpose_apply [1, 0] y Facts₀.transposes_S4096x1_S1x4096_1_0 (ix2 (0 : Fin 1) j) (ix2 j (0 : Fin 1)) (fun b => match b with
    | ⟨0, _⟩ => rfl
    | ⟨1, _⟩ => rfl)

/-! ## The six blocks at an entry, as the reference's stages of the argument -/

theorem eRow_val (c : Dev nD) (t : Fin cfg0.N) (a : Fin 512) (k : Fin 1024) :
    eRow (F := Ideal) m c t (ix2 a k) = val_main_v4 (F := Ideal) (xArg m c) (ix2 (gRow (pt64 t) a) k) := by
  rw [eRow_apply m c t a k, V_v12 m c]

theorem eCol_val (c : Dev nD) (t : Fin cfg0.N) (b : Fin 512) (k : Fin 1024) :
    eCol (F := Ideal) m c t (ix2 b k) = val_main_v4 (F := Ideal) (xArg m c) (ix2 (gCol (pt64 t) b) k) := by
  rw [eCol_apply m c t b k, V_v12 m c]

theorem nRow_val (c : Dev nD) (t : Fin cfg0.N) (a : Fin 512) :
    nRow (F := Ideal) m c t (ix2 a (0 : Fin 1)) = val_main_v8 (F := Ideal) (xArg m c) (ix1 (gRow (pt64 t) a)) := by
  rw [nRow_apply m c t a, V_v7 m c]
  exact (col_apply (xArg m c) (gRow (pt64 t) a)).1

theorem sRow_val (c : Dev nD) (t : Fin cfg0.N) (a : Fin 512) :
    sRow (F := Ideal) m c t (ix2 a (0 : Fin 1)) = val_main_v9 (F := Ideal) (xArg m c) (ix1 (gRow (pt64 t) a)) := by
  rw [sRow_apply m c t a, V_v9 m c]
  exact (col_apply (xArg m c) (gRow (pt64 t) a)).2

theorem nCol_val (c : Dev nD) (t : Fin cfg0.N) (b : Fin 512) :
    nCol (F := Ideal) m c t (ix2 (0 : Fin 1) b) = val_main_v8 (F := Ideal) (xArg m c) (ix1 (gCol (pt64 t) b)) := by
  rw [nCol_apply m c t b, V_v10 m c]
  exact (transposeCol_apply _ (gCol (pt64 t) b)).trans (col_apply (xArg m c) (gCol (pt64 t) b)).1

theorem sCol_val (c : Dev nD) (t : Fin cfg0.N) (b : Fin 512) :
    sCol (F := Ideal) m c t (ix2 (0 : Fin 1) b) = val_main_v9 (F := Ideal) (xArg m c) (ix1 (gCol (pt64 t) b)) := by
  rw [sCol_apply m c t b, V_v11 m c]
  exact (transposeCol_apply _ (gCol (pt64 t) b)).trans (col_apply (xArg m c) (gCol (pt64 t) b)).2

/-! ## The body's arithmetic at an entry

The block product contracts the second axis of both operands: on the left operand the row is the entry's row, on the
right operand the row is the entry's column, and the contraction index is the coordinate. -/

theorem lhs_mm_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_mm_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_mm_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_mm_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The block product, accumulated into zeros, at entry `(a, b)`: the sum over the coordinates of row `a` of the left
    operand times row `b` of the right. -/
theorem mm_apply (l r : FVec Ideal S512x1024 .bf16) (a b : Fin 512) :
    matmul dot_S512x1024_S512x1024_S512x512_1_1_0_0_n_n none l r (constant (F := Ideal) S512x512 .f32 0x00000000#32) (ix2 a b)
      = ∑ k : Fin 1024, l (ix2 a k) * r (ix2 b k) := by
  show FloatOps.matmul dot_S512x1024_S512x1024_S512x512_1_1_0_0_n_n none l r (constant (F := Ideal) S512x512 .f32 0x00000000#32) (ix2 a b) = _
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 a b) ((contrEquiv1 dot_S512x1024_S512x1024_S512x512_1_1_0_0_n_n 1024 rfl rfl).symm k) = ix2 a k := funext fun d => Fin.ext (by
    match d with
    | ⟨0, _⟩ => exact lhs_mm_0 _ _
    | ⟨1, _⟩ => exact (lhs_mm_1 _ _).trans hk)
  have er : dot_S512x1024_S512x1024_S512x512_1_1_0_0_n_n.rhsIdx (ix2 a b) ((contrEquiv1 dot_S512x1024_S512x1024_S512x512_1_1_0_0_n_n 1024 rfl rfl).symm k) = ix2 b k := funext fun d => Fin.ext (by
    match d with
    | ⟨0, _⟩ => exact rhs_mm_0 _ _
    | ⟨1, _⟩ => exact (rhs_mm_1 _ _).trans hk)
  rw [el, er]

/-- A column laid along every column of the block reads its row's entry, -/
theorem colBcast_apply (v : FVec Ideal S512x1 .f32) (a b : Fin 512) :
    broadcastTo S512x512 v Facts₀.broadcasts_S512x1_S512x512 (ix2 a b) = v (ix2 a (0 : Fin 1)) :=
  broadcastTo_apply v Facts₀.broadcasts_S512x1_S512x512 (ix2 a b) (ix2 a (0 : Fin 1)) (by
    intro d
    match d with
    | ⟨0, _⟩ => show a.val = if (512 : Nat) = 1 then 0 else a.val; rw [if_neg (by decide)]
    | ⟨1, _⟩ => rfl)

/-- and a row laid along every row reads its column's entry. -/
theorem rowBcast_apply (v : FVec Ideal S1x512 .f32) (a b : Fin 512) :
    broadcastTo S512x512 v Facts₀.broadcasts_S1x512_S512x512 (ix2 a b) = v (ix2 (0 : Fin 1) b) :=
  broadcastTo_apply v Facts₀.broadcasts_S1x512_S512x512 (ix2 a b) (ix2 (0 : Fin 1) b) (by
    intro d
    match d with
    | ⟨0, _⟩ => rfl
    | ⟨1, _⟩ => show b.val = if (512 : Nat) = 1 then 0 else b.val; rw [if_neg (by decide)])

/-- The block of clamped squared distances at entry `(a, b)`, from the six blocks the point reads: the two norms
    added, twice the inner product taken off, the scaled difference of the sums and the constant added, clamped
    at zero. -/
theorem pay3_apply (v5 v7 : Vec Ideal S512x1024 .bf16) (v10 : Vec Ideal S512x1 .f32) (v12 : Vec Ideal S1x512 .f32)
    (v20 : Vec Ideal S512x1 .f32) (v22 : Vec Ideal S1x512 .f32) (a b : Fin 512) :
    k0_pay3 (F := Ideal) v5 v7 v10 v12 v20 v22 (ix2 a b)
      = max ((((v10 (ix2 a (0 : Fin 1)) + v12 (ix2 (0 : Fin 1) b))
                - Ideal.ofBits .f32 0x40000000#32 * ∑ k : Fin 1024, v5 (ix2 a k) * v7 (ix2 b k))
              + Ideal.ofBits .f32 0x360637BD#32 * (v20 (ix2 a (0 : Fin 1)) - v22 (ix2 (0 : Fin 1) b)))
            + Ideal.ofBits .f32 0x308CBCCC#32) (Ideal.ofBits .f32 0x00000000#32) := by
  unfold k0_pay3
  simp only [shapeCast_self]
  simp only [maximumf_apply, addf_apply, subf_apply, mulf_apply, broadcast_apply]
  rw [colBcast_apply, rowBcast_apply, colBcast_apply, rowBcast_apply, mm_apply]
  rfl

/-! ## The reference's matrix at an entry -/

open Cert.ReferenceIdeal.Read in
/-- Entry `(i, j)` of the reference's matrix of clamped squared distances, from the normalised rows, their squared
    norms and their coordinate sums: the same expression. -/
theorem ref_apply (x : (⟨Cert.ReferenceIdeal.S4096x1024, .f32⟩ : BufTy).Contents (Elt Ideal)) (i j : Fin 4096) :
    val_main_v29 (F := Ideal) x (ix2 i j)
      = max ((((val_main_v8 (F := Ideal) x (ix1 i) + val_main_v8 (F := Ideal) x (ix1 j))
                - Ideal.ofBits .f32 0x40000000#32 * ∑ k : Fin 1024, val_main_v4 (F := Ideal) x (ix2 i k) * val_main_v4 (F := Ideal) x (ix2 j k))
              + Ideal.ofBits .f32 0x360637BD#32 * (val_main_v9 (F := Ideal) x (ix1 i) - val_main_v9 (F := Ideal) x (ix1 j)))
            + Ideal.ofBits .f32 0x308CBCCC#32) (Ideal.ofBits .f32 0x00000000#32) := by
  have e12 : idx_main_v12 (ix2 i j) = ix2 i (0 : Fin 1) := funext fun a => Fin.ext (by match a with | ⟨0, _⟩ => rfl | ⟨1, _⟩ => rfl)
  have e10 : idx_main_v10 (ix2 i (0 : Fin 1)) = ix1 i := funext fun a => Fin.ext (by match a with | ⟨0, _⟩ => rfl)
  have e13 : idx_main_v13 (ix2 i j) = ix2 (0 : Fin 1) j := funext fun a => Fin.ext (by match a with | ⟨0, _⟩ => rfl | ⟨1, _⟩ => rfl)
  have e11 : idx_main_v11 (ix2 (0 : Fin 1) j) = ix1 j := funext fun a => Fin.ext (by match a with | ⟨0, _⟩ => rfl)
  have e20 : idx_main_v20 (ix2 i j) = ix2 i (0 : Fin 1) := funext fun a => Fin.ext (by match a with | ⟨0, _⟩ => rfl | ⟨1, _⟩ => rfl)
  have e18 : idx_main_v18 (ix2 i (0 : Fin 1)) = ix1 i := funext fun a => Fin.ext (by match a with | ⟨0, _⟩ => rfl)
  have e21 : idx_main_v21 (ix2 i j) = ix2 (0 : Fin 1) j := funext fun a => Fin.ext (by match a with | ⟨0, _⟩ => rfl | ⟨1, _⟩ => rfl)
  have e19 : idx_main_v19 (ix2 (0 : Fin 1) j) = ix1 j := funext fun a => Fin.ext (by match a with | ⟨0, _⟩ => rfl)
  have el : ∀ k : Fin 1024, lidx_main_v6 (ix2 i j) k = ix2 i k := fun k => funext fun a => Fin.ext (by match a with | ⟨0, _⟩ => rfl | ⟨1, _⟩ => rfl)
  have er : ∀ k : Fin 1024, idx_main_v5 (ridx_main_v6 (ix2 i j) k) = ix2 j k := fun k => funext fun a => Fin.ext (by match a with | ⟨0, _⟩ => rfl | ⟨1, _⟩ => rfl)
  rw [val_main_v29_apply, val_main_v27_apply, val_main_v25_apply, val_main_v17_apply, val_main_v14_apply,
    val_main_v12_apply, val_main_v10_apply, val_main_v13_apply, val_main_v11_apply,
    val_main_v16_apply, val_main_v15_apply, val_main_cst_2_apply, val_main_v6_apply,
    val_main_v24_apply, val_main_v23_apply, val_main_cst_3_apply, val_main_v22_apply,
    val_main_v20_apply, val_main_v18_apply, val_main_v21_apply, val_main_v19_apply,
    val_main_v26_apply, val_main_cst_4_apply, val_main_v28_apply, val_main_cst_5_apply]
  simp only [val_main_v5_apply, e12, e10, e13, e11, e20, e18, e21, e19, el, er]
  rfl

/-! ## The two meet -/

/-- Entry `(a, b)` of the block of grid point `t` is entry `(512 (t / 8) + a, 512 (t % 8) + b)` of the reference's
    matrix. -/
theorem distBlock_apply (m : (ℓ : Loc nD τ sig) → Buf (Elt Ideal) ℓ) (c : Dev nD) (t : Fin cfg0.N) (a b : Fin 512) :
    distBlock (F := Ideal) m c t (ix2 a b)
      = Cert.ReferenceIdeal.Read.val_main_v29 (F := Ideal) (xArg m c) (ix2 (gRow (pt64 t) a) (gCol (pt64 t) b)) := by
  unfold distBlock
  refine (pay3_apply (eRow m c t) (eCol m c t) (nRow m c t) (nCol m c t) (sRow m c t) (sCol m c t) a b).trans ?_
  have hs : ∑ k : Fin 1024, eRow (F := Ideal) m c t (ix2 a k) * eCol (F := Ideal) m c t (ix2 b k)
      = ∑ k : Fin 1024, val_main_v4 (F := Ideal) (xArg m c) (ix2 (gRow (pt64 t) a) k) * val_main_v4 (F := Ideal) (xArg m c) (ix2 (gCol (pt64 t) b) k) :=
    Finset.sum_congr rfl fun k _ => by rw [eRow_val m c t a k, eCol_val m c t b k]
  rw [hs, nRow_val m c t a, nCol_val m c t b, sRow_val m c t a, sCol_val m c t b, ref_apply]

end Cert.KernelIdeal.Hand
end
-- ==== Proof.KI.Value.lean ====
/-
  The kernel's result is the reference's.

  Each grid point adds to the accumulator the sum, over its 512 × 512 block, of the reference's masked matrix of
  clamped squared distances (the diagonal zeroed): the kernel zeroes an entry by selecting on row ≠ column where the
  reference multiplies by one minus the identity matrix, and on the extended reals d · 0 = 0 and d · 1 = d for
  every d. So after the last point the accumulator is the sum over all 64 blocks, which is the sum over the whole
  4096 × 4096 matrix: addition of extended reals is commutative and associative, which is all a regrouping of a
  finite sum needs. Both programs then divide that sum by the same constant.
-/
import proofs.«143332_j841813590238_1_alg».proof.Proof.KI.Index
import proofs.«143332_j841813590238_1_alg».proof.Proof.KI.Ends
import proofs.«143332_j841813590238_1_alg».proof.Proof.KI.Reindex
import proofs.«143332_j841813590238_1_alg».proof.Proof.KI.PointSum
import proofs.«143332_j841813590238_1_alg».proof.Proof.KI.BlockValue
import Mathlib.Algebra.BigOperators.Fin
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-! ## One grid point's term, and the accumulator as a sum of them -/

/-- What grid point `t` adds to the accumulator: its block's entries of the reference's masked matrix. -/
def pointTerm (x : (⟨Cert.ReferenceIdeal.S4096x1024, .f32⟩ : BufTy).Contents (Elt Ideal)) (t : Fin 64) : EReal :=
  ∑ a : Fin 512, ∑ b : Fin 512, Cert.ReferenceIdeal.Read.val_main_v38 (F := Ideal) x (ix2 (gRow t a) (gCol t b))

/-- One step of the accumulator adds the point's term. -/
theorem stepAcc_apply (c : Dev nD) (t : Fin cfg0.N) (prev : Vec Ideal S1x1 .f32) :
    stepAcc (F := Ideal) m c t prev (ix2 (0 : Fin 1) (0 : Fin 1))
      = prev (ix2 (0 : Fin 1) (0 : Fin 1)) + pointTerm (xArg m c) (pt64 t) := by
  unfold stepAcc pointTerm
  rw [pay1_apply]
  congr 1
  refine Finset.sum_congr rfl fun a _ => Finset.sum_congr rfl fun b _ => ?_
  rw [distBlock_apply, v38_apply]

/-- The point terms as a sequence over all naturals (zero past the grid). -/
def termSeq (x : (⟨Cert.ReferenceIdeal.S4096x1024, .f32⟩ : BufTy).Contents (Elt Ideal)) (k : ℕ) : EReal :=
  if h : k < 64 then pointTerm x ⟨k, h⟩ else 0

/-- The accumulator after point `n` is the sum of the terms of the points up to `n`. -/
theorem accAfter_sum (c : Dev nD) : ∀ n : ℕ,
    accAfter (F := Ideal) m c n (ix2 (0 : Fin 1) (0 : Fin 1)) = ∑ k ∈ Finset.range (n + 1), termSeq (xArg m c) k
  | 0 => by
    have hN : cfg0.N = 64 := N_0
    have h0 : 0 < cfg0.N := by omega
    unfold accAfter
    rw [dif_pos h0, stepAcc_apply, pay2_apply, zero_add, Finset.sum_range_one]
    unfold termSeq
    rw [dif_pos (by omega)]
  | n + 1 => by
    have hN : cfg0.N = 64 := N_0
    rw [Finset.sum_range_succ, ← accAfter_sum c n]
    by_cases h : n + 1 < cfg0.N
    · rw [accAfter, dif_pos h, stepAcc_apply]
      unfold termSeq
      rw [dif_pos (by omega)]
    · rw [accAfter, dif_neg h]
      unfold termSeq
      rw [dif_neg (by omega), add_zero]

/-- After the last point the accumulator holds the sum of every entry of the reference's masked matrix. -/
theorem accAfter_total (c : Dev nD) :
    accAfter (F := Ideal) m c 63 (ix2 (0 : Fin 1) (0 : Fin 1))
      = ∑ j : Cert.ReferenceIdeal.S4096x4096.Idx, Cert.ReferenceIdeal.Read.val_main_v38 (F := Ideal) (xArg m c) j := by
  rw [accAfter_sum m c 63, sum_idx2,
    ← blocks_reindex (fun i j => Cert.ReferenceIdeal.Read.val_main_v38 (F := Ideal) (xArg m c) (ix2 i j)),
    ← Fin.sum_univ_eq_sum_range (fun k => termSeq (xArg m c) k) 64]
  refine Finset.sum_congr rfl fun t _ => ?_
  unfold termSeq
  rw [dif_pos t.isLt]
  rfl

/-! ## The program's result is the reference's -/

theorem result_eq (c : Dev nD) :
    (Vend (F := Ideal) m c (Proc.devRef .tc main_v15) : S_.Idx → Elt Ideal .f32)
      = Cert.ReferenceIdeal.Read.val_main_v40 (F := Ideal) (xArg m c) := by
  rw [vend_eq]
  funext i
  rw [Cert.ReferenceIdeal.Read.val_main_v40_apply, Cert.ReferenceIdeal.Read.val_main_v39_apply,
    Cert.ReferenceIdeal.Read.val_main_cst_7_apply, Cert.ReferenceIdeal.Read.val_main_cst_8_apply]
  have hL : ∀ (A B : FVec Ideal S_ .f32), Host.divf A B i = FloatOps.hostDivf (A i) (B i) := fun _ _ => rfl
  rw [hL]
  have hk : (S1x1.rowMajor (ix2 (0 : Fin 1) (0 : Fin 1))).val = (S_.rowMajor i).val := by
    have h1 := (S1x1.rowMajor (ix2 (0 : Fin 1) (0 : Fin 1))).isLt
    have h2 := (S_.rowMajor i).isLt
    have e1 : S1x1.numel = 1 := rfl
    have e2 : S_.numel = 1 := rfl
    omega
  rw [shapeCast_apply _ shapeCasts_S1x1_S_ i (ix2 (0 : Fin 1) (0 : Fin 1)) hk, vout_out, accAfter_total]
  congr 1
  simp only [Ideal.ofBits_def, Ideal.ofBits_zero_f32, zero_add]

end Cert.KernelIdeal.Hand

end
-- ==== Proof.lean ====
/-
  A contrastive loss over 4096 embeddings of width 1024: the rows are normalised, and the loss is the mean, over the
  ordered pairs i ≠ j, of max(r_i + r_j − 2⟨e_i, e_j⟩ + 2ε(s_i − s_j) + 1024 ε², 0), where r is a row's squared norm
  and s its coordinate sum (this is ‖e_i − e_j + ε‖², clamped). The reference forms the whole 4096 × 4096 matrix,
  multiplies it by one minus the identity and sums it. The kernel walks the matrix in an 8 × 8 grid of 512 × 512
  blocks: it forms each block from the row block and the column block of the embeddings (two windows on the same
  array), zeroes the entries on the matrix's diagonal, adds the block's sum to a scratch accumulator, and writes the
  accumulator out at the last block. Both programs divide by 4096 · 4095.

  On the extended reals the two are the same function. Entry by entry the block is the reference's matrix at the
  block's place (the same operations on the same operands; a change of float format is the identity; a matrix
  product into a zero accumulator is the contraction's sum). Zeroing by a select and by a product with 0 or 1 agree
  since d · 0 = 0 and d · 1 = d for every extended real d. And the sum of the 64 block sums is the sum of all
  entries, by commutativity and associativity alone. No finiteness of the inputs is used.

  The frames: each kernel program runs as host operations, the pipelined region, host operations; the region's two
  windows on the embeddings' array each hold one half of it, and the argument arrays are staged by no window and
  written by no host operation, so they end as they began. The reference is a straight line of host operations.
-/
import proofs.«143332_j841813590238_1_alg».proof.Defs
import proofs.«143332_j841813590238_1_alg».proof.Proof.Gen.Kernel
import proofs.«143332_j841813590238_1_alg».proof.Proof.Gen.KernelIdeal
import proofs.«143332_j841813590238_1_alg».proof.Proof.Gen.ReferenceIdeal
import proofs.«143332_j841813590238_1_alg».proof.Proof.Gen.Pre_finite_inputs
import proofs.«143332_j841813590238_1_alg».proof.Proof.Gen.ReferenceIdeal.Run
import proofs.«143332_j841813590238_1_alg».proof.Proof.Gen.ReferenceIdeal.Read
import proofs.«143332_j841813590238_1_alg».proof.Proof.K.Body
import proofs.«143332_j841813590238_1_alg».proof.Proof.K.Launch
import proofs.«143332_j841813590238_1_alg».proof.Proof.KI.Body
import proofs.«143332_j841813590238_1_alg».proof.Proof.KI.Launch
import proofs.«143332_j841813590238_1_alg».proof.Proof.KI.Value
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ =>
  (θ_run Cert.Kernel.defs _ _).mono (fun _ h c => ⟨(h c).2.1, (h c).2.2⟩)
    (Cert.Kernel.Hand.run_main (F := Bits) m ρ (Cert.Kernel.Hand.body_obligation m))

/-- So does the idealized one. -/
theorem frame_ki : Cert.frame_KernelIdeal := fun m ρ _ =>
  (θ_run Cert.KernelIdeal.defs _ _).mono (fun _ h c => ⟨(h c).2.1, (h c).2.2⟩)
    (Cert.KernelIdeal.Hand.run_main (F := Ideal) m ρ (Cert.KernelIdeal.Hand.body_obligation m))

/-- The reference is host operations only. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the same loss. -/
theorem algebraic : Cert.algebraic_KernelIdeal_ReferenceIdeal := by
  intro m ρ m' ρ' _ hagree
  refine ⟨fun c => Cert.KernelIdeal.Hand.Vend m c (Proc.devRef .tc Cert.KernelIdeal.main_v15),
    Cert.KernelIdeal.Hand.run_main (F := Ideal) m ρ (Cert.KernelIdeal.Hand.body_obligation m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
